-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x1x518x518 : Shape := ⟨5, ![4, 32, 1, 518, 518]⟩
abbrev S_ : Shape := ⟨0, ![]⟩

class Facts : Prop where
  bcast_S_S4x32x1x518x518 : S_.BroadcastsInDim S4x32x1x518x518 (![] : Fin 0 → Fin S4x32x1x518x518.rank)
  reducesTo_S4x32x1x518x518_S_d0_1_2_3_4 : S4x32x1x518x518.ReducesTo [0, 1, 2, 3, 4] S_
  h_S_ : 0 < S_.numel

variable [Facts]

def fn {F : FTy → Type} [FloatOps F] (main_arg0 : FVec F S4x32x1x518x518 .f32) (main_arg1 : FVec F S4x32x1x518x518 .f32) : IVec S_ 1 :=
  let main_v0 : FVec F S4x32x1x518x518 .f32 := Host.absf main_arg0
  let main_cst : FVec F S_ .f32 := constant S_ .f32 0x7F800000#32
  let main_v1 : FVec F S4x32x1x518x518 .f32 := broadcastInDim S4x32x1x518x518 ![] bcast_S_S4x32x1x518x518 main_cst
  let main_v2 : IVec S4x32x1x518x518 1 := cmpf .olt main_v0 main_v1
  let main_c : IVec S_ 1 := constantI S_ 1 1#1
  let main_v3 : IVec S_ 1 := (fun x v => Host.reduce IntOp.andi x v reducesTo_S4x32x1x518x518_S_d0_1_2_3_4 h_S_) main_v2 main_c
  let main_v4 : FVec F S4x32x1x518x518 .f32 := Host.absf main_arg1
  let main_cst_0 : FVec F S_ .f32 := constant S_ .f32 0x7F800000#32
  let main_v5 : FVec F S4x32x1x518x518 .f32 := broadcastInDim S4x32x1x518x518 ![] bcast_S_S4x32x1x518x518 main_cst_0
  let main_v6 : IVec S4x32x1x518x518 1 := cmpf .olt main_v4 main_v5
  let main_c_1 : IVec S_ 1 := constantI S_ 1 1#1
  let main_v7 : IVec S_ 1 := (fun x v => Host.reduce IntOp.andi x v reducesTo_S4x32x1x518x518_S_d0_1_2_3_4 h_S_) main_v6 main_c_1
  let main_v8 : IVec S_ 1 := andi main_v3 main_v7
  main_v8
-- ==== Kernel.lean ====
abbrev S4x32x1x518x518 : Shape := ⟨5, ![4, 32, 1, 518, 518]⟩
abbrev S4x32x518x518 : Shape := ⟨4, ![4, 32, 518, 518]⟩
abbrev S1x1 : Shape := ⟨2, ![1, 1]⟩
abbrev S1x1x518x518 : Shape := ⟨4, ![1, 1, 518, 518]⟩
abbrev S518x518 : Shape := ⟨2, ![518, 518]⟩
abbrev S518 : Shape := ⟨1, ![518]⟩
abbrev S518x1 : Shape := ⟨2, ![518, 1]⟩
abbrev S1 : Shape := ⟨1, ![1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S4x32x1x518x518, .f32⟩
  | .hbm, ⟨1, _⟩ => ⟨S4x32x1x518x518, .f32⟩
  | .hbm, ⟨2, _⟩ => ⟨S4x32x518x518, .f32⟩
  | .hbm, ⟨3, _⟩ => ⟨S4x32x518x518, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1x518x518, .f32⟩
  | .local _ .vmem, ⟨1, _⟩ => ⟨S1x1x518x518, .f32⟩
  | .local _ .vmem, ⟨2, _⟩ => ⟨S1x1x518x518, .f32⟩
  | .local _ .vmem, ⟨3, _⟩ => ⟨S1x1x518x518, .f32⟩
  | .local _ .vmem, ⟨4, _⟩ => ⟨S1x1x518x518, .f32⟩
  | .local _ .vmem, ⟨5, _⟩ => ⟨S1x1x518x518, .f32⟩
  | .local _ .vmem, ⟨6, _⟩ => ⟨S1x1x518x518, .f32⟩
  | .local _ .vmem, ⟨7, _⟩ => ⟨S1x1x518x518, .f32⟩
  | .local _ .vmem, ⟨8, _⟩ => ⟨S1x1, .f32⟩
  | _, _ => ⟨S4x32x1x518x518, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 31], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x518x518 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x518x518 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x518x518 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x518x518 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4x32x1x518x518_S4x32x518x518 : S4x32x1x518x518.ShapeCasts S4x32x518x518
  inb_S1x1_S1x1_0_0 : ∀ a, (![0, 0] : Fin 2 → Nat) a + S1x1.size a ≤ S1x1.size a
  h_S1x1 : 0 < S1x1.numel
  inb_S1x1x518x518_S1x1x518x518_0_0_0_0 : ∀ a, (![0, 0, 0, 0] : Fin 4 → Nat) a + S1x1x518x518.size a ≤ S1x1x518x518.size a
  h_S1x1x518x518 : 0 < S1x1x518x518.numel
  shapeCasts_S1x1x518x518_S518x518 : S1x1x518x518.ShapeCasts S518x518
  reduces_S518x518_S518 : S518x518.Reduces [1] S518
  shapeCasts_S518_S518x1 : S518.ShapeCasts S518x1
  reduces_S518x1_S1 : S518x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x518x518.size a ≤ S4x32x518x518.size a
  hwx0_0 : ∀ i : grid0.Coords, EltTy.bits .f32 = 32 ∨ (Rect.block (s := S4x32x518x518) S1x1x518x518.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x518x518.size a ≤ S4x32x518x518.size a
  hwx0_1 : ∀ i : grid0.Coords, EltTy.bits .f32 = 32 ∨ (Rect.block (s := S4x32x518x518) S1x1x518x518.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x518x518.size a ≤ S4x32x518x518.size a
  hwx0_2 : ∀ i : grid0.Coords, EltTy.bits .f32 = 32 ∨ (Rect.block (s := S4x32x518x518) S1x1x518x518.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x518x518.size a ≤ S4x32x518x518.size a
  hwx0_3 : ∀ i : grid0.Coords, EltTy.bits .f32 = 32 ∨ (Rect.block (s := S4x32x518x518) S1x1x518x518.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S1x1x518x518.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x518x518.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x518x518.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x518x518.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x1x518x518 : Shape := ⟨5, ![4, 32, 1, 518, 518]⟩
abbrev S4x32x518x518 : Shape := ⟨4, ![4, 32, 518, 518]⟩
abbrev S4x32x268324 : Shape := ⟨3, ![4, 32, 268324]⟩
abbrev S4x31x268324 : Shape := ⟨3, ![4, 31, 268324]⟩
abbrev S_ : Shape := ⟨0, ![]⟩
abbrev S4 : Shape := ⟨1, ![4]⟩

abbrev nBuf : Space → Nat
  | .hbm => 25
  | .vmem => 0
  | .smem => 0
  | _ => 0

abbrev bufTy : (tb : Table) → Fin (tcTables nBuf tb) → BufTy
  | .hbm, ⟨0, _⟩ => ⟨S4x32x1x518x518, .f32⟩
  | .hbm, ⟨1, _⟩ => ⟨S4x32x1x518x518, .f32⟩
  | .hbm, ⟨2, _⟩ => ⟨S4x32x518x518, .f32⟩
  | .hbm, ⟨3, _⟩ => ⟨S4x32x518x518, .f32⟩
  | .hbm, ⟨4, _⟩ => ⟨S4x32x268324, .f32⟩
  | .hbm, ⟨5, _⟩ => ⟨S4x32x268324, .f32⟩
  | .hbm, ⟨6, _⟩ => ⟨S4x31x268324, .f32⟩
  | .hbm, ⟨7, _⟩ => ⟨S4x31x268324, .f32⟩
  | .hbm, ⟨8, _⟩ => ⟨S4x31x268324, .f32⟩
  | .hbm, ⟨9, _⟩ => ⟨S4x31x268324, .f32⟩
  | .hbm, ⟨10, _⟩ => ⟨S4x31x268324, .f32⟩
  | .hbm, ⟨11, _⟩ => ⟨S4x31x268324, .f32⟩
  | .hbm, ⟨12, _⟩ => ⟨S4x31x268324, .f32⟩
  | .hbm, ⟨13, _⟩ => ⟨S4x31x268324, .f32⟩
  | .hbm, ⟨14, _⟩ => ⟨S4x31x268324, .f32⟩
  | .hbm, ⟨15, _⟩ => ⟨S4x31x268324, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S4x32x1x518x518, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  shapeCasts_S4x32x1x518x518_S4x32x518x518 : S4x32x1x518x518.ShapeCasts S4x32x518x518
  shapeCasts_S4x32x518x518_S4x32x268324 : S4x32x518x518.ShapeCasts S4x32x268324
  slices_S4x32x268324_S4x31x268324_0_0_0 : S4x32x268324.Slices ![0, 0, 0] S4x31x268324
  slices_S4x32x268324_S4x31x268324_0_1_0 : S4x32x268324.Slices ![0, 1, 0] S4x31x268324
  reducesTo_S4x31x268324_S4_d1_2 : S4x31x268324.ReducesTo [1, 2] S4
  h_S_ : 0 < S_.numel
  bcast_S_S4 : S_.BroadcastsInDim S4 (![] : Fin 0 → Fin S4.rank)
  reducesTo_S4_S_d0 : S4.ReducesTo [0] S_

variable [Facts₀]

class Facts : Prop extends Facts₀ where

variable [Facts]
-- ==== Proof.K.Base.lean ====
/-
  The ground the kernel's frame stands on: what the arrays hold when the region is entered
  (the two inputs with their unit channel axis dropped), each window's block of them at a grid point, when the
  body's one branch is taken (at the first point only: there the accumulator is reset), and the staging
  buffers the body is handed at a point.
-/
import proofs.«159468_j38036230373449_1_alg».proof.Proof.Gen.Kernel.Launch
import proofs.«159468_j38036230373449_1_alg».proof.Proof.Gen.Kernel.Skeleton
import proofs.«159468_j38036230373449_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the two reshapes that drop
    the inputs' unit channel axis. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, then the three operations that turn the accumulated scalar into
    the result: it reduces to the region continued by those three, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The reshapes write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body resets the accumulator when both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first point of the grid and no other. -/
theorem hcond0 : ∀ t : Fin cfg0.N, cond0 (grid0.coords t) ↔ t.val = 0 :=
  (by decide +kernel : ∀ t : Fin grid0.N, cond0 (grid0.coords t) ↔ t.val = 0)

/-! ## The staging buffers at a point -/

abbrev VO4 : View sig .tc .vmem S1x1 .f32 := (Memref.whole cc0_stg4_0 : Memref sig .tc .vmem S1x1 .f32).view
abbrev ms0 (t : Fin cfg0.N) : Memref sig .tc .vmem S1x1x518x518 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x518x518 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x518x518 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x518x518 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

end Cert.Kernel.Hand

end
-- ==== Proof.K.RunA.lean ====
/-
  The body at the grid's first point, where its branch is taken. Whatever the accumulator's cell holds on entry, the
  body reads it, overwrites it with zero, loads the four frames, reads the cell back and stores the frames' pixel
  sum added to what it read. The run is stated on any whole staging buffers: the four inputs at given contents, the
  cell at anything; it ends with the inputs as they were and the cell with the two stores written, the later first.
  The list of those stores is the witness the run produces.
-/
import proofs.«159468_j38036230373449_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's buffer when its branch is taken (the later first), with the proof
    that from the four input buffers at `x0 … x3` and the accumulator's at anything the body runs to any continuation
    that holds the inputs unchanged and the accumulator's buffer with those stores written. -/
noncomputable def kernelRunA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunB.lean ====
/-
  The body at every grid point after the first, where its branch is not taken. It loads the four frames, reads the
  accumulator's cell and stores the frames' pixel sum added to what it read. The run is stated on any whole staging
  buffers: the four inputs and the cell at given contents; it ends with the inputs as they were and the cell with the
  one store written. The list holding that store is the witness the run produces.
-/
import proofs.«159468_j38036230373449_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the accumulator's buffer when its branch is not taken, with the proof that from the
    four input buffers at `x0 … x3` and the accumulator's at `xo` the body runs to any continuation that holds the
    inputs unchanged and the accumulator's buffer with that store written. -/
noncomputable def kernelRunB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.Acc.lean ====
/-
  What the region's windows hold point by point. The four input windows hold, at grid point `t = 31 b + n`,
  frame `n` and frame `n + 1` of batch `b` of the first array and the same two frames of the second; the body never
  writes them. The one output window is a single cell that the body resets at the first point and then adds every
  point's pixel sum into: after point `t` it holds the running total of the points `0 … t`. The first array is
  read through two windows and so is the second; each of the two holds half of the array's read share.
-/
import proofs.«159468_j38036230373449_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total after the body at position `n` of the grid: the first point's pixel sum added to the reset
    cell, every later point's added to what the point before left. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn => k0_pay2 (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_zero (c : Dev nD) (hn : 0 < cfg0.N) :
    accAt m c 0 hn = k0_pay2 (iblk m c 0 ⟨0, hn⟩) (iblk m c 1 ⟨0, hn⟩) (iblk m c 2 ⟨0, hn⟩) (iblk m c 3 ⟨0, hn⟩) (k0_pay1 (F := F)) := rfl

theorem accAt_succ (c : Dev nD) (n : ℕ) (hn : n + 1 < cfg0.N) :
    accAt m c (n + 1) hn = k0_pay2 (iblk m c 0 ⟨n + 1, hn⟩) (iblk m c 1 ⟨n + 1, hn⟩) (iblk m c 2 ⟨n + 1, hn⟩) (iblk m c 3 ⟨n + 1, hn⟩)
      (accAt m c n (Nat.lt_of_succ_lt hn)) := rfl

/-- The proof data of the one pipeline on core `c`: the arrays as the region finds them; after the body at point
    `t` each input's buffer still at its block and the output's at the running total; between points nothing of
    the body's own beyond the unstaged scoped buffers and the generator register; nothing owed. The two windows on
    one array hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

end Cert.Kernel.Hand

end
-- ==== Proof.K.Body.lean ====
/-
  The body's obligation at every grid point, for any float instance.

  At the first point the body's branch is taken: it leaves in the accumulator's cell the zero it stored, read back,
  with the point's pixel sum added. At every later point the branch is not taken: it leaves what the cell held with
  the point's pixel sum added. Both are read off the stores the runs found: the stores cover the one-cell block, so
  what they leave does not depend on the buffer or on what it held, and the last store's payload is what is left.

  What the body finds: every input window is fetched at every point, so its buffer holds its block; the output window
  is written back only at the last point, is never cut and never idle, so after the first point its buffer holds what
  the body left at the point before, the running total. With the runs this gives the obligation point by point.
-/
import proofs.«159468_j38036230373449_1_alg».proof.Proof.K.RunB
import proofs.«159468_j38036230373449_1_alg».proof.Proof.K.Acc
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the cell, and what they leave -/

/-- Both offsets of the accumulator's one store rectangle are zero. -/
theorem hz2 : (![0, 0] : Fin 2 → Nat) = fun _ => 0 := funext fun a => by fin_cases a <;> rfl
/-- All four offsets of an input's load rectangle are zero. -/
theorem hz4 : (![0, 0, 0, 0] : Fin 4 → Nat) = fun _ => 0 := funext fun a => by fin_cases a <;> rfl

/-- When the branch is taken the two stores tile the one-cell block, so they cover it. -/
theorem coverA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) (y : S1x1.Idx) :
    ∃ pc ∈ (kernelRunA c i arg2 harg2 arg3 harg3 arg4 harg4 arg5 harg5 arg6 harg6 hc x0 x1 x2 x3).1, y ∈ pc.1.set :=
  View.cover_of_tiledL (kernelRunA c i arg2 harg2 arg3 harg3 arg4 harg4 arg5 harg5 arg6 harg6 hc x0 x1 x2 x3).1 S1x1.size (by sl_kernel_rfl) y

/-- What the body then leaves in the accumulator's buffer: its stores read back over arbitrary contents. -/
def outA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) : Vec F S1x1 .f32 :=
  VO4.read (Elt F) (VO4.writes (Elt F) VO4.junk (kernelRunA c i arg2 harg2 arg3 harg3 arg4 harg4 arg5 harg5 arg6 harg6 hc x0 x1 x2 x3).1)

/-- When the branch is not taken the one store tiles the block, so it covers it. -/
theorem coverB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) (y : S1x1.Idx) :
    ∃ pc ∈ (kernelRunB c i arg2 harg2 arg3 harg3 arg4 harg4 arg5 harg5 arg6 harg6 hc x0 x1 x2 x3 xo).1, y ∈ pc.1.set :=
  View.cover_of_tiledL (kernelRunB c i arg2 harg2 arg3 harg3 arg4 harg4 arg5 harg5 arg6 harg6 hc x0 x1 x2 x3 xo).1 S1x1.size (by sl_kernel_rfl) y

/-- What the body then leaves in the accumulator's buffer. -/
def outB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) : Vec F S1x1 .f32 :=
  VO4.read (Elt F) (VO4.writes (Elt F) VO4.junk (kernelRunB c i arg2 harg2 arg3 harg3 arg4 harg4 arg5 harg5 arg6 harg6 hc x0 x1 x2 x3 xo).1)

/-- Branch taken: the later store covers the cell, so what is left is its payload, the pixel sum of the four frames
    added to what the body read back from the cell, and that is the zero the earlier store put there. Each frame is
    read through the whole-buffer rectangle at zero offsets, so it is the buffer's contents. -/
theorem outA_eq (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) :
    outA c i arg2 harg2 arg3 harg3 arg4 harg4 arg5 harg5 arg6 harg6 hc x0 x1 x2 x3 = k0_pay2 x0 x1 x2 x3 (k0_pay1 (F := F)) := by
  unfold outA
  rw [View.read_writes_eq_canon _ _ _ (coverA c i arg2 harg2 arg3 harg3 arg4 harg4 arg5 harg5 arg6 harg6 hc x0 x1 x2 x3)]
  unfold kernelRunA
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1x1x518x518) hz4]

/-- Branch not taken: the one store covers the cell, so what is left is its payload, the pixel sum of the four frames
    added to what the cell held. -/
theorem outB_eq (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) :
    outB c i arg2 harg2 arg3 harg3 arg4 harg4 arg5 harg5 arg6 harg6 hc x0 x1 x2 x3 xo = k0_pay2 x0 x1 x2 x3 xo := by
  unfold outB
  rw [View.read_writes_eq_canon _ _ _ (coverB c i arg2 harg2 arg3 harg3 arg4 harg4 arg5 harg5 arg6 harg6 hc x0 x1 x2 x3 xo)]
  unfold kernelRunB
  dsimp only
  sl_unfold_words
  rw [View.canon_unit_zero (S := S1x1) hz2]
  simp only [View.readAt_eq_ld, harg2.read_unread, harg3.read_unread, harg4.read_unread, harg5.read_unread,
    harg6.read_unread, View.ld_unit_zero (S := S1x1x518x518) hz4, View.ld_unit_zero (S := S1x1) hz2]

/-! ## The running total, by the point's case -/

/-- At the first point the running total is that point's pixel sum added to zero. -/
theorem accAt_first (c : Dev nD) (t : Fin cfg0.N) (h0 : t.val = 0) :
    accAt m c t.val t.isLt = k0_pay2 (iblk m c 0 t) (iblk m c 1 t) (iblk m c 2 t) (iblk m c 3 t) (k0_pay1 (F := F)) := by
  obtain ⟨n, hn⟩ := t
  cases n with
  | zero => exact rfl
  | succ n => exact absurd h0 (Nat.succ_ne_zero n)

/-- At a later point it is that point's pixel sum added to the total after the point before. -/
theorem accAt_later (c : Dev nD) (t : Fin cfg0.N) (h0 : t.val ≠ 0) :
    accAt m c t.val t.isLt = k0_pay2 (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact rfl

/-! ## What the body finds in each staging buffer -/

/-- Input window 0 is fetched at every point, so its buffer holds its block there. -/
theorem before0 (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)
/-- Input window 1 is fetched at every point, so its buffer holds its block there. -/
theorem before1 (c : Dev nD) (t : Fin cfg0.N) (d) : (dats m 0 c).before 1 t d = iblk m c 1 t :=
  ((dats m 0 c).before_fetched 1 t (fetch0_1 t) d).trans
    (by unfold Dat.fetched Dat.blockOf iblk; rw [A_eq]; try rfl)
/-- Input window 2 is fetched at every point, so its buffer holds its block there. -/
theorem before2 (c : Dev nD) (t : Fin cfg0.N) (d) : (dats m 0 c).before 2 t d = iblk m c 2 t :=
  ((dats m 0 c).before_fetched 2 t (fetch0_2 t) d).trans
    (by unfold Dat.fetched Dat.blockOf iblk; rw [A_eq]; try rfl)
/-- Input window 3 is fetched at every point, so its buffer holds its block there. -/
theorem before3 (c : Dev nD) (t : Fin cfg0.N) (d) : (dats m 0 c).before 3 t d = iblk m c 3 t :=
  ((dats m 0 c).before_fetched 3 t (fetch0_3 t) d).trans
    (by unfold Dat.fetched Dat.blockOf iblk; rw [A_eq]; try rfl)

/-- After the first point the output window's buffer holds the running total the body left at the point before: the
    window is written back at the last point only, so never between two points, and it is uncut and never idle. -/
theorem before4_later (c : Dev nD) (t : Fin cfg0.N) (h0 : t.val ≠ 0) (d) :
    (dats m 0 c).before 4 t d = (accAt m c (t.val - 1) (Nat.lt_of_le_of_lt (Nat.sub_le _ _) t.isLt)) := by
  have hN : t.val < 124 := lt_of_lt_of_eq t.isLt (show cfg0.N = 124 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation, at a generic point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The input buffers hold their blocks. At the first point the branch is taken and the run
    with the cell at anything applies; at a later point it is not taken, the cell holds the total of the point before,
    and the run from there applies. Either way the stores cover the cell, so what the buffer then reads is what the
    case leaves, which is the running total at this point. The invariant and what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply ((kernelRunA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _
        (coverA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))).trans
      (outA_eq c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))
  · rw [accAt_later m c t h0]
    simp only [before4_later m c t h0]
    iintro ⟨HΦ, Ho, ⟨%d0, H0⟩, ⟨%d1, H1⟩, ⟨%d2, H2⟩, ⟨%d3, H3⟩, ⟨%d4, H4⟩⟩
    iapply ((kernelRunB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _
        (coverB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt)))).trans
      (outB_eq c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt)))

/-- The library's body obligation, at every point: its five windows conjoined one by one. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the program around its one region. Two things set it apart from the plain case. The first input
  array is read through two windows (frame `n` and frame `n + 1`), and so is the second: each array's read share is
  dealt to its two windows by halves when the region is entered, and the halves are carried through the operations
  that follow the region untouched. Those three operations (the accumulated cell reshaped to a scalar, the constant
  124, their quotient) run from the region's exit holding only the result array and their own three buffers.
-/
import proofs.«159468_j38036230373449_1_alg».proof.Proof.K.Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL bigSep_eq_bigSepL_of_eq bigSepL_cons_cons bigSepL_singleton bigSep_map)

/-- What the three operations after the region may touch: the accumulated cell's array and the three buffers they write. -/
def tailSet : Finset (DevRef τ sig) :=
  ([main_v2, main_v3, main_cst, main_v4].toFinset : Finset (Ref sig .tc)).map ⟨Proc.devRef (sig := sig) .tc, Proc.devRef_injective _⟩

theorem held_tailSet (c : Dev nD) (W : Valuation τ sig (Elt F)) :
    (StableHlo.held (Ix := Unit) (Name := ℕ) (U := UR sig nD τ) (Lvl := ℕ) (c.tc : Thread nD τ) tailSet W : sProp 𝕄)
      = iprop((((c : Thread nD τ).loc main_v2) ↦{fullShare} W (Proc.devRef .tc main_v2)) ∗ (((c : Thread nD τ).loc main_v3) ↦{fullShare} W (Proc.devRef .tc main_v3))
          ∗ (((c : Thread nD τ).loc main_cst) ↦{fullShare} W (Proc.devRef .tc main_cst)) ∗ (((c : Thread nD τ).loc main_v4) ↦{fullShare} W (Proc.devRef .tc main_v4))) := by
  unfold StableHlo.held tailSet
  rw [bigSep_map]
  exact bigSep_eq_bigSepL [main_v2, main_v3, main_cst, main_v4] (by decide) _

theorem hostOps1_in_tailSet : ∀ ops ∈ ([hostOps1] : List (List (HloOp τ sig (Elt F)))), ∀ op ∈ ops, op.bufs ⊆ tailSet := by
  have h2 : Proc.devRef (τ := τ) .tc main_v2 ∈ tailSet := Finset.mem_map_of_mem _ (by decide)
  have h3 : Proc.devRef (τ := τ) .tc main_v3 ∈ tailSet := Finset.mem_map_of_mem _ (by decide)
  have hc : Proc.devRef (τ := τ) .tc main_cst ∈ tailSet := Finset.mem_map_of_mem _ (by decide)
  have h4 : Proc.devRef (τ := τ) .tc main_v4 ∈ tailSet := Finset.mem_map_of_mem _ (by decide)
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; intro b hb
    simp only [Finset.mem_insert, Finset.mem_singleton] at hb
    rcases hb with rfl | rfl <;> assumption
  · rw [StableHlo.nullary_bufs]; intro b hb
    simp only [Finset.mem_singleton] at hb
    subst hb; assumption
  · rw [StableHlo.binary_bufs]; intro b hb
    simp only [Finset.mem_insert, Finset.mem_singleton] at hb
    rcases hb with rfl | rfl | rfl <;> assumption

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The three operations' results from any contents: the cell reshaped to a scalar, the constant, their quotient. -/
theorem tail_v4 (W : Valuation τ sig (Elt F)) :
    StableHlo.after (List.flatten [hostOps1]) W (Proc.devRef .tc main_v4)
      = Host.divf (shapeCast S_ (W (Proc.devRef .tc main_v2)) shapeCasts_S1x1_S_) (constant S_ .f32 0x42F80000#32) := by
  simp only [hostOps1, List.flatten_cons, List.flatten_nil, List.append_nil]; after_results <;> rfl

theorem tail_v2 (W : Valuation τ sig (Elt F)) :
    StableHlo.after (List.flatten [hostOps1]) W (Proc.devRef .tc main_v2) = W (Proc.devRef .tc main_v2) := by
  simp only [hostOps1, List.flatten_cons, List.flatten_nil, List.append_nil]; after_results

/-! ## The contents at the region's exit and at the end -/

open Classical in
/-- Core `c`'s buffer contents when the region is left: as it was entered, but for the result array, which holds
    what the write-backs left. -/
def Wexit (c : Dev nD) : Valuation τ sig (Elt F) :=
  Function.update (V0 m c) (Proc.devRef .tc main_v2) ((dats m 0 c).arrAt 4 cfg0.N)

theorem Wexit_v2 (c : Dev nD) : Wexit m c (Proc.devRef .tc main_v2) = (dats m 0 c).arrAt 4 cfg0.N := by
  unfold Wexit; exact Function.update_self ..

theorem Wexit_ne (c : Dev nD) (b : Ref sig .tc) (h : b ≠ main_v2) : Wexit m c (Proc.devRef .tc b) = V m c b := by
  unfold Wexit; exact Function.update_of_ne (StableHlo.devRef_ne_of_ne h) _ _

/-- The contents when the program ends: the three last operations run from the exit contents. -/
def Wend (c : Dev nD) (b : Ref sig .tc) : Buf (Elt F) ((c : Thread nD τ).loc b) :=
  StableHlo.after (List.flatten [hostOps1]) (Wexit m c) (Proc.devRef .tc b)

theorem held_in (c : Dev nD) :
    iprop((((c : Thread nD τ).loc main_v2) ↦{fullShare} (dats m 0 c).arrAt 4 cfg0.N) ∗ (((c : Thread nD τ).loc main_v3) ↦{fullShare} V m c main_v3)
          ∗ (((c : Thread nD τ).loc main_cst) ↦{fullShare} V m c main_cst) ∗ (((c : Thread nD τ).loc main_v4) ↦{fullShare} V m c main_v4))
      ⊢ (StableHlo.held (Ix := Unit) (Name := ℕ) (U := UR sig nD τ) (Lvl := ℕ) (c.tc : Thread nD τ) tailSet (Wexit m c) : sProp 𝕄) := by
  rw [held_tailSet, Wexit_v2, Wexit_ne m c main_v3 (by decide), Wexit_ne m c main_cst (by decide), Wexit_ne m c main_v4 (by decide)]

theorem held_out (c : Dev nD) :
    (StableHlo.held (Ix := Unit) (Name := ℕ) (U := UR sig nD τ) (Lvl := ℕ) (c.tc : Thread nD τ) tailSet (StableHlo.after (List.flatten [hostOps1]) (Wexit m c)) : sProp 𝕄)
      ⊢ iprop((((c : Thread nD τ).loc main_v2) ↦{fullShare} (dats m 0 c).arrAt 4 cfg0.N) ∗ (((c : Thread nD τ).loc main_v3) ↦{fullShare} Wend m c main_v3)
          ∗ (((c : Thread nD τ).loc main_cst) ↦{fullShare} Wend m c main_cst) ∗ (((c : Thread nD τ).loc main_v4) ↦{fullShare} Wend m c main_v4)) := by
  rw [held_tailSet, tail_v2, Wexit_v2]
  exact .rfl

theorem Wend_arg0 (c : Dev nD) : Wend m c main_arg0 = V m c main_arg0 := by
  unfold Wend
  rw [StableHlo.after_of_forall_not_mem, Wexit_ne m c main_arg0 (by decide)]
  intro op hop
  simp only [hostOps1, List.flatten_cons, List.flatten_nil, List.append_nil, List.mem_cons, List.mem_nil_iff, or_false] at hop
  rcases hop with rfl | rfl | rfl <;> simp only [StableHlo.reshape_writes, StableHlo.nullary_writes, StableHlo.binary_writes, Finset.mem_singleton] <;> exact StableHlo.devRef_ne_of_ne (by decide)

theorem Wend_arg1 (c : Dev nD) : Wend m c main_arg1 = V m c main_arg1 := by
  unfold Wend
  rw [StableHlo.after_of_forall_not_mem, Wexit_ne m c main_arg1 (by decide)]
  intro op hop
  simp only [hostOps1, List.flatten_cons, List.flatten_nil, List.append_nil, List.mem_cons, List.mem_nil_iff, or_false] at hop
  rcases hop with rfl | rfl | rfl <;> simp only [StableHlo.reshape_writes, StableHlo.nullary_writes, StableHlo.binary_writes, Finset.mem_singleton] <;> exact StableHlo.devRef_ne_of_ne (by decide)

theorem Wend_v4 (c : Dev nD) : Wend m c main_v4
    = Host.divf (shapeCast S_ ((dats m 0 c).arrAt 4 cfg0.N) shapeCasts_S1x1_S_) (constant S_ .f32 0x42F80000#32) := by
  unfold Wend; rw [tail_v4, Wexit_v2]

/-- The three operations after the region, run from the region's exit: they read the accumulated cell, write their own
    three buffers and leave everything else, the arrays' shares included, as it was. -/
theorem htail (c : Dev nD) (Q' : PUnit → sProp 𝕄) :
    iprop((iprop((dats m 0 c).arrays ((dats m 0 c).arrAt · cfg0.N) ∗ Pipeline.unscopedRestP Pipeline.Prefetch.none spec0 c (Wend m c)) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0]
  simp only [View.set_whole, share4]
  iintro ⟨Hk, Hb, ⟨A0, A1, A2, A3, A4⟩, ⟨Ra0, Ra1, R3, Rc, R4⟩⟩
  ihave Hh := (held_in m c) $$ [A4 R3 Rc R4]
  · isplitl [A4]; · iexact A4
    isplitl [R3]; · iexact R3
    isplitl [Rc]; · iexact Rc
    iexact R4
  ihave Hw := (Pipeline.wp_seqs_then (fun q => (cfgs q).toPCfg (Val := Elt F)) defs₀ Variants.none c tailSet [] [hostOps1] hostOps1_in_tailSet hostOps1_fresh' (Wexit m c)) $$ [Hb Hh]
  · isplitl [Hb] <;> iassumption
  iapply Hw
  iintro ⟨Hb, Hh⟩
  rw [Pipeline.chain_nil, wp_pure]
  imodintro
  ihave Hh' := (held_out m c) $$ Hh
  icases Hh' with ⟨A4, R3, Rc, R4⟩
  iapply Hk
  isplitl [A0 A1 A2 A3 A4]
  · isplitl [A0]; · iexact A0
    isplitl [A1]; · iexact A1
    isplitl [A2]; · iexact A2
    isplitl [A3]; · iexact A3
    iexact A4
  · rw [Wend_arg0, Wend_arg1]
    isplitl [Ra0]; · iexact Ra0
    isplitl [Ra1]; · iexact Ra1
    isplitl [R3]; · iexact R3
    isplitl [Rc]; · iexact Rc
    iexact R4

/-! ## The arrays dealt to the windows -/

theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2)) := by
  unfold Pipeline.arrBufs
  exact bigSep_eq_bigSepL_of_eq [main_v0, main_v1, main_v2] (by decide) (by decide) _

theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  simp only [View.set_whole, share0, share1, share2, share3, share4]
  rw [show (dats m 0 c).arrAt 0 0 = V m c main_v0 from A_eq m c 0, show (dats m 0 c).arrAt 1 0 = V m c main_v0 from A_eq m c 1,
    show (dats m 0 c).arrAt 2 0 = V m c main_v1 from A_eq m c 2, show (dats m 0 c).arrAt 3 0 = V m c main_v1 from A_eq m c 3,
    show (dats m 0 c).arrAt 4 0 = V m c main_v2 from A_eq m c 4]
  iintro ⟨H0, H1, H2⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  iexact H2

/-! ## The run -/

theorem mem_rest (b : Ref sig .tc) (hs : b.isScoped = false) (ha : ∀ w, (spec0 w).arr.view.ref ≠ b) :
    b ∈ Pipeline.restRefsP sig (Pipeline.Prefetch.none (sig := sig)) spec0 :=
  Finset.mem_sdiff.mpr ⟨Pipeline.mem_restRefs_of b hs ha, fun h => by
    obtain ⟨k, -, -⟩ := Finset.mem_image.mp h; exact k.elim0⟩

set_option backward.isDefEq.respectTransparency.types false in
/-- From any memory with zero counters every weakly fair execution of the program terminates, with the result at the
    accumulated cell's contents divided by 124 and the two arguments as they were — given the body's obligation at
    every grid point. The first input array is lent to its two windows by halves, and so is the second. -/
theorem run_main (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v4)
          = Host.divf (shapeCast S_ ((dats m 0 c).arrAt 4 cfg0.N) shapeCasts_S1x1_S_) (constant S_ .f32 0x42F80000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig (Pipeline.Prefetch.none (sig := sig)) spec0, s.mem ((c.tc : Thread nD τ).loc b) = Wend m c b)
    (hY := fun c s' => by
      iintro ⟨-, HU, HSI⟩
      unfold Pipeline.unscopedRestP
      imodintro
      iapply (pointsTo_read_all (Pipeline.restRefsP sig (Pipeline.Prefetch.none (sig := sig)) spec0) (fun b => (c.tc : Thread nD τ).loc b) (Wend m c) s')
      isplitl [HU] <;> iassumption)
    (hQ := fun s h c =>
      ⟨((h c).2.2 main_v4 (mem_rest main_v4 rfl (by decide))).trans (Wend_v4 m c),
       ((h c).2.2 main_arg0 (mem_rest main_arg0 rfl (by decide))).trans ((Wend_arg0 m c).trans (V_main_arg0 m c)),
       ((h c).2.2 main_arg1 (mem_rest main_arg1 rfl (by decide))).trans ((Wend_arg1 m c).trans (V_main_arg1 m c))⟩)

end Cert.Kernel.Hand
end
-- ==== Proof.KI.Base.lean ====
/-
  The ground the kernel's frame stands on: what the arrays hold when the region is entered
  (the two inputs with their unit channel axis dropped), each window's block of them at a grid point, when the
  body's one branch is taken (at the first point only: there the accumulator is reset), and the staging
  buffers the body is handed at a point.
-/
import proofs.«159468_j38036230373449_1_alg».proof.Proof.Gen.KernelIdeal.Launch
import proofs.«159468_j38036230373449_1_alg».proof.Proof.Gen.KernelIdeal.Skeleton
import proofs.«159468_j38036230373449_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the two reshapes that drop
    the inputs' unit channel axis. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two reshapes, the region, then the three operations that turn the accumulated scalar into
    the result: it reduces to the region continued by those three, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The reshapes write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The body resets the accumulator when both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is the first point of the grid and no other. -/
theorem hcond0 : ∀ t : Fin cfg0.N, cond0 (grid0.coords t) ↔ t.val = 0 :=
  (by decide +kernel : ∀ t : Fin grid0.N, cond0 (grid0.coords t) ↔ t.val = 0)

/-! ## The staging buffers at a point -/

abbrev VO4 : View sig .tc .vmem S1x1 .f32 := (Memref.whole cc0_stg4_0 : Memref sig .tc .vmem S1x1 .f32).view
abbrev ms0 (t : Fin cfg0.N) : Memref sig .tc .vmem S1x1x518x518 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x518x518 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x518x518 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x518x518 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

end Cert.KernelIdeal.Hand

end
-- ==== Proof.KI.RunA.lean ====
/-
  The body at the grid's first point, where its branch is taken. Whatever the accumulator's cell holds on entry, the
  body reads it, overwrites it with zero, loads the four frames, reads the cell back and stores the frames' pixel
  sum added to what it read. The run is stated on any whole staging buffers: the four inputs at given contents, the
  cell at anything; it ends with the inputs as they were and the cell with the two stores written, the later first.
  The list of those stores is the witness the run produces.
-/
import proofs.«159468_j38036230373449_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator's buffer when its branch is taken (the later first), with the proof
    that from the four input buffers at `x0 … x3` and the accumulator's at anything the body runs to any continuation
    that holds the inputs unchanged and the accumulator's buffer with those stores written. -/
noncomputable def kernelRunA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/-
  The body at every grid point after the first, where its branch is not taken. It loads the four frames, reads the
  accumulator's cell and stores the frames' pixel sum added to what it read. The run is stated on any whole staging
  buffers: the four inputs and the cell at given contents; it ends with the inputs as they were and the cell with the
  one store written. The list holding that store is the witness the run produces.
-/
import proofs.«159468_j38036230373449_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the accumulator's buffer when its branch is not taken, with the proof that from the
    four input buffers at `x0 … x3` and the accumulator's at `xo` the body runs to any continuation that holds the
    inputs unchanged and the accumulator's buffer with that store written. -/
noncomputable def kernelRunB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Acc.lean ====
/-
  What the region's windows hold point by point. The four input windows hold, at grid point `t = 31 b + n`,
  frame `n` and frame `n + 1` of batch `b` of the first array and the same two frames of the second; the body never
  writes them. The one output window is a single cell that the body resets at the first point and then adds every
  point's pixel sum into: after point `t` it holds the running total of the points `0 … t`. The first array is
  read through two windows and so is the second; each of the two holds half of the array's read share.
-/
import proofs.«159468_j38036230373449_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total after the body at position `n` of the grid: the first point's pixel sum added to the reset
    cell, every later point's added to what the point before left. -/
def accAt (c : Dev nD) : (n : ℕ) → n < cfg0.N → Vec F S1x1 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn => k0_pay2 (iblk m c 0 ⟨n + 1, hn⟩) (iblk m c 1 ⟨n + 1, hn⟩) (iblk m c 2 ⟨n + 1, hn⟩) (iblk m c 3 ⟨n + 1, hn⟩)
      (accAt c n (Nat.lt_of_succ_lt hn))

theorem accAt_zero (c : Dev nD) (hn : 0 < cfg0.N) :
    accAt m c 0 hn = k0_pay2 (iblk m c 0 ⟨0, hn⟩) (iblk m c 1 ⟨0, hn⟩) (iblk m c 2 ⟨0, hn⟩) (iblk m c 3 ⟨0, hn⟩) (k0_pay1 (F := F)) := rfl

theorem accAt_succ (c : Dev nD) (n : ℕ) (hn : n + 1 < cfg0.N) :
    accAt m c (n + 1) hn = k0_pay2 (iblk m c 0 ⟨n + 1, hn⟩) (iblk m c 1 ⟨n + 1, hn⟩) (iblk m c 2 ⟨n + 1, hn⟩) (iblk m c 3 ⟨n + 1, hn⟩)
      (accAt m c n (Nat.lt_of_succ_lt hn)) := rfl

/-- The proof data of the one pipeline on core `c`: the arrays as the region finds them; after the body at point
    `t` each input's buffer still at its block and the output's at the running total; between points nothing of
    the body's own beyond the unstaged scoped buffers and the generator register; nothing owed. The two windows on
    one array hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

end Cert.KernelIdeal.Hand

end
-- ==== Proof.KI.Body.lean ====
/-
  The body's obligation at every grid point, for any float instance.

  At the first point the body's branch is taken: it leaves in the accumulator's cell the zero it stored, read back,
  with the point's pixel sum added. At every later point the branch is not taken: it leaves what the cell held with
  the point's pixel sum added. Both are read off the stores the runs found: the stores cover the one-cell block, so
  what they leave does not depend on the buffer or on what it held, and the last store's payload is what is left.

  What the body finds: every input window is fetched at every point, so its buffer holds its block; the output window
  is written back only at the last point, is never cut and never idle, so after the first point its buffer holds what
  the body left at the point before, the running total. With the runs this gives the obligation point by point.
-/
import proofs.«159468_j38036230373449_1_alg».proof.Proof.KI.RunB
import proofs.«159468_j38036230373449_1_alg».proof.Proof.KI.Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the cell, and what they leave -/

/-- Both offsets of the accumulator's one store rectangle are zero. -/
theorem hz2 : (![0, 0] : Fin 2 → Nat) = fun _ => 0 := funext fun a => by fin_cases a <;> rfl
/-- All four offsets of an input's load rectangle are zero. -/
theorem hz4 : (![0, 0, 0, 0] : Fin 4 → Nat) = fun _ => 0 := funext fun a => by fin_cases a <;> rfl

/-- When the branch is taken the two stores tile the one-cell block, so they cover it. -/
theorem coverA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) (y : S1x1.Idx) :
    ∃ pc ∈ (kernelRunA c i arg2 harg2 arg3 harg3 arg4 harg4 arg5 harg5 arg6 harg6 hc x0 x1 x2 x3).1, y ∈ pc.1.set :=
  View.cover_of_tiledL (kernelRunA c i arg2 harg2 arg3 harg3 arg4 harg4 arg5 harg5 arg6 harg6 hc x0 x1 x2 x3).1 S1x1.size (by sl_kernel_rfl) y

/-- What the body then leaves in the accumulator's buffer: its stores read back over arbitrary contents. -/
def outA (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) : Vec F S1x1 .f32 :=
  VO4.read (Elt F) (VO4.writes (Elt F) VO4.junk (kernelRunA c i arg2 harg2 arg3 harg3 arg4 harg4 arg5 harg5 arg6 harg6 hc x0 x1 x2 x3).1)

/-- When the branch is not taken the one store tiles the block, so it covers it. -/
theorem coverB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) (y : S1x1.Idx) :
    ∃ pc ∈ (kernelRunB c i arg2 harg2 arg3 harg3 arg4 harg4 arg5 harg5 arg6 harg6 hc x0 x1 x2 x3 xo).1, y ∈ pc.1.set :=
  View.cover_of_tiledL (kernelRunB c i arg2 harg2 arg3 harg3 arg4 harg4 arg5 harg5 arg6 harg6 hc x0 x1 x2 x3 xo).1 S1x1.size (by sl_kernel_rfl) y

/-- What the body then leaves in the accumulator's buffer. -/
def outB (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) : Vec F S1x1 .f32 :=
  VO4.read (Elt F) (VO4.writes (Elt F) VO4.junk (kernelRunB c i arg2 harg2 arg3 harg3 arg4 harg4 arg5 harg5 arg6 harg6 hc x0 x1 x2 x3 xo).1)

/-- Branch taken: the later store covers the cell, so what is left is its payload, the pixel sum of the four frames
    added to what the body read back from the cell, and that is the zero the earlier store put there. Each frame is
    read through the whole-buffer rectangle at zero offsets, so it is the buffer's contents. -/
theorem outA_eq (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : cond0 i)
    (x0 x1 x2 x3 : Vec F S1x1x518x518 .f32) :
    outA c i arg2 harg2 arg3 harg3 arg4 harg4 arg5 harg5 arg6 harg6 hc x0 x1 x2 x3 = k0_pay2 x0 x1 x2 x3 (k0_pay1 (F := F)) := by
  unfold outA
  rw [View.read_writes_eq_canon _ _ _ (coverA c i arg2 harg2 arg3 harg3 arg4 harg4 arg5 harg5 arg6 harg6 hc x0 x1 x2 x3)]
  unfold kernelRunA
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1x1x518x518) hz4]

/-- Branch not taken: the one store covers the cell, so what is left is its payload, the pixel sum of the four frames
    added to what the cell held. -/
theorem outB_eq (c : Dev nD) (i : grid0.Coords) (arg2 : Memref sig .tc .vmem S1x1x518x518 .f32) (harg2 : arg2.IsWhole) (arg3 : Memref sig .tc .vmem S1x1x518x518 .f32) (harg3 : arg3.IsWhole) (arg4 : Memref sig .tc .vmem S1x1x518x518 .f32) (harg4 : arg4.IsWhole) (arg5 : Memref sig .tc .vmem S1x1x518x518 .f32) (harg5 : arg5.IsWhole) (arg6 : Memref sig .tc .vmem S1x1 .f32) (harg6 : arg6.IsWhole) (hc : ¬cond0 i)
    (x0 x1 x2 x3 : Vec F S1x1x518x518 .f32) (xo : Vec F S1x1 .f32) :
    outB c i arg2 harg2 arg3 harg3 arg4 harg4 arg5 harg5 arg6 harg6 hc x0 x1 x2 x3 xo = k0_pay2 x0 x1 x2 x3 xo := by
  unfold outB
  rw [View.read_writes_eq_canon _ _ _ (coverB c i arg2 harg2 arg3 harg3 arg4 harg4 arg5 harg5 arg6 harg6 hc x0 x1 x2 x3 xo)]
  unfold kernelRunB
  dsimp only
  sl_unfold_words
  rw [View.canon_unit_zero (S := S1x1) hz2]
  simp only [View.readAt_eq_ld, harg2.read_unread, harg3.read_unread, harg4.read_unread, harg5.read_unread,
    harg6.read_unread, View.ld_unit_zero (S := S1x1x518x518) hz4, View.ld_unit_zero (S := S1x1) hz2]

/-! ## The running total, by the point's case -/

/-- At the first point the running total is that point's pixel sum added to zero. -/
theorem accAt_first (c : Dev nD) (t : Fin cfg0.N) (h0 : t.val = 0) :
    accAt m c t.val t.isLt = k0_pay2 (iblk m c 0 t) (iblk m c 1 t) (iblk m c 2 t) (iblk m c 3 t) (k0_pay1 (F := F)) := by
  obtain ⟨n, hn⟩ := t
  cases n with
  | zero => exact rfl
  | succ n => exact absurd h0 (Nat.succ_ne_zero n)

/-- At a later point it is that point's pixel sum added to the total after the point before. -/
theorem accAt_later (c : Dev nD) (t : Fin cfg0.N) (h0 : t.val ≠ 0) :
    accAt m c t.val t.isLt = k0_pay2 (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact rfl

/-! ## What the body finds in each staging buffer -/

/-- Input window 0 is fetched at every point, so its buffer holds its block there. -/
theorem before0 (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)
/-- Input window 1 is fetched at every point, so its buffer holds its block there. -/
theorem before1 (c : Dev nD) (t : Fin cfg0.N) (d) : (dats m 0 c).before 1 t d = iblk m c 1 t :=
  ((dats m 0 c).before_fetched 1 t (fetch0_1 t) d).trans
    (by unfold Dat.fetched Dat.blockOf iblk; rw [A_eq]; try rfl)
/-- Input window 2 is fetched at every point, so its buffer holds its block there. -/
theorem before2 (c : Dev nD) (t : Fin cfg0.N) (d) : (dats m 0 c).before 2 t d = iblk m c 2 t :=
  ((dats m 0 c).before_fetched 2 t (fetch0_2 t) d).trans
    (by unfold Dat.fetched Dat.blockOf iblk; rw [A_eq]; try rfl)
/-- Input window 3 is fetched at every point, so its buffer holds its block there. -/
theorem before3 (c : Dev nD) (t : Fin cfg0.N) (d) : (dats m 0 c).before 3 t d = iblk m c 3 t :=
  ((dats m 0 c).before_fetched 3 t (fetch0_3 t) d).trans
    (by unfold Dat.fetched Dat.blockOf iblk; rw [A_eq]; try rfl)

/-- After the first point the output window's buffer holds the running total the body left at the point before: the
    window is written back at the last point only, so never between two points, and it is uncut and never idle. -/
theorem before4_later (c : Dev nD) (t : Fin cfg0.N) (h0 : t.val ≠ 0) (d) :
    (dats m 0 c).before 4 t d = (accAt m c (t.val - 1) (Nat.lt_of_le_of_lt (Nat.sub_le _ _) t.isLt)) := by
  have hN : t.val < 124 := lt_of_lt_of_eq t.isLt (show cfg0.N = 124 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation, at a generic point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point. The input buffers hold their blocks. At the first point the branch is taken and the run
    with the cell at anything applies; at a later point it is not taken, the cell holds the total of the point before,
    and the run from there applies. Either way the stores cover the cell, so what the buffer then reads is what the
    case leaves, which is the running total at this point. The invariant and what is owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val = 0
  · rw [accAt_first m c t h0]
    iintro ⟨HΦ, Ho, ⟨%d0, H0⟩, ⟨%d1, H1⟩, ⟨%d2, H2⟩, ⟨%d3, H3⟩, ⟨%d4, H4⟩⟩
    iapply ((kernelRunA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _
        (coverA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))).trans
      (outA_eq c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))
  · rw [accAt_later m c t h0]
    simp only [before4_later m c t h0]
    iintro ⟨HΦ, Ho, ⟨%d0, H0⟩, ⟨%d1, H1⟩, ⟨%d2, H2⟩, ⟨%d3, H3⟩, ⟨%d4, H4⟩⟩
    iapply ((kernelRunB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _
        (coverB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt)))).trans
      (outB_eq c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (accAt m c (t.val - 1) (Nat.lt_of_le_of_lt (Nat.sub_le _ _) t.isLt)))

/-- The library's body obligation, at every point: its five windows conjoined one by one. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the program around its one region. Two things set it apart from the plain case. The first input
  array is read through two windows (frame `n` and frame `n + 1`), and so is the second: each array's read share is
  dealt to its two windows by halves when the region is entered, and the halves are carried through the operations
  that follow the region untouched. Those three operations (the accumulated cell reshaped to a scalar, the constant
  124, their quotient) run from the region's exit holding only the result array and their own three buffers.
-/
import proofs.«159468_j38036230373449_1_alg».proof.Proof.KI.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL bigSep_eq_bigSepL_of_eq bigSepL_cons_cons bigSepL_singleton bigSep_map)

/-- What the three operations after the region may touch: the accumulated cell's array and the three buffers they write. -/
def tailSet : Finset (DevRef τ sig) :=
  ([main_v2, main_v3, main_cst, main_v4].toFinset : Finset (Ref sig .tc)).map ⟨Proc.devRef (sig := sig) .tc, Proc.devRef_injective _⟩

theorem held_tailSet (c : Dev nD) (W : Valuation τ sig (Elt F)) :
    (StableHlo.held (Ix := Unit) (Name := ℕ) (U := UR sig nD τ) (Lvl := ℕ) (c.tc : Thread nD τ) tailSet W : sProp 𝕄)
      = iprop((((c : Thread nD τ).loc main_v2) ↦{fullShare} W (Proc.devRef .tc main_v2)) ∗ (((c : Thread nD τ).loc main_v3) ↦{fullShare} W (Proc.devRef .tc main_v3))
          ∗ (((c : Thread nD τ).loc main_cst) ↦{fullShare} W (Proc.devRef .tc main_cst)) ∗ (((c : Thread nD τ).loc main_v4) ↦{fullShare} W (Proc.devRef .tc main_v4))) := by
  unfold StableHlo.held tailSet
  rw [bigSep_map]
  exact bigSep_eq_bigSepL [main_v2, main_v3, main_cst, main_v4] (by decide) _

theorem hostOps1_in_tailSet : ∀ ops ∈ ([hostOps1] : List (List (HloOp τ sig (Elt F)))), ∀ op ∈ ops, op.bufs ⊆ tailSet := by
  have h2 : Proc.devRef (τ := τ) .tc main_v2 ∈ tailSet := Finset.mem_map_of_mem _ (by decide)
  have h3 : Proc.devRef (τ := τ) .tc main_v3 ∈ tailSet := Finset.mem_map_of_mem _ (by decide)
  have hc : Proc.devRef (τ := τ) .tc main_cst ∈ tailSet := Finset.mem_map_of_mem _ (by decide)
  have h4 : Proc.devRef (τ := τ) .tc main_v4 ∈ tailSet := Finset.mem_map_of_mem _ (by decide)
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; intro b hb
    simp only [Finset.mem_insert, Finset.mem_singleton] at hb
    rcases hb with rfl | rfl <;> assumption
  · rw [StableHlo.nullary_bufs]; intro b hb
    simp only [Finset.mem_singleton] at hb
    subst hb; assumption
  · rw [StableHlo.binary_bufs]; intro b hb
    simp only [Finset.mem_insert, Finset.mem_singleton] at hb
    rcases hb with rfl | rfl | rfl <;> assumption

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The three operations' results from any contents: the cell reshaped to a scalar, the constant, their quotient. -/
theorem tail_v4 (W : Valuation τ sig (Elt F)) :
    StableHlo.after (List.flatten [hostOps1]) W (Proc.devRef .tc main_v4)
      = Host.divf (shapeCast S_ (W (Proc.devRef .tc main_v2)) shapeCasts_S1x1_S_) (constant S_ .f32 0x42F80000#32) := by
  simp only [hostOps1, List.flatten_cons, List.flatten_nil, List.append_nil]; after_results <;> rfl

theorem tail_v2 (W : Valuation τ sig (Elt F)) :
    StableHlo.after (List.flatten [hostOps1]) W (Proc.devRef .tc main_v2) = W (Proc.devRef .tc main_v2) := by
  simp only [hostOps1, List.flatten_cons, List.flatten_nil, List.append_nil]; after_results

/-! ## The contents at the region's exit and at the end -/

open Classical in
/-- Core `c`'s buffer contents when the region is left: as it was entered, but for the result array, which holds
    what the write-backs left. -/
def Wexit (c : Dev nD) : Valuation τ sig (Elt F) :=
  Function.update (V0 m c) (Proc.devRef .tc main_v2) ((dats m 0 c).arrAt 4 cfg0.N)

theorem Wexit_v2 (c : Dev nD) : Wexit m c (Proc.devRef .tc main_v2) = (dats m 0 c).arrAt 4 cfg0.N := by
  unfold Wexit; exact Function.update_self ..

theorem Wexit_ne (c : Dev nD) (b : Ref sig .tc) (h : b ≠ main_v2) : Wexit m c (Proc.devRef .tc b) = V m c b := by
  unfold Wexit; exact Function.update_of_ne (StableHlo.devRef_ne_of_ne h) _ _

/-- The contents when the program ends: the three last operations run from the exit contents. -/
def Wend (c : Dev nD) (b : Ref sig .tc) : Buf (Elt F) ((c : Thread nD τ).loc b) :=
  StableHlo.after (List.flatten [hostOps1]) (Wexit m c) (Proc.devRef .tc b)

theorem held_in (c : Dev nD) :
    iprop((((c : Thread nD τ).loc main_v2) ↦{fullShare} (dats m 0 c).arrAt 4 cfg0.N) ∗ (((c : Thread nD τ).loc main_v3) ↦{fullShare} V m c main_v3)
          ∗ (((c : Thread nD τ).loc main_cst) ↦{fullShare} V m c main_cst) ∗ (((c : Thread nD τ).loc main_v4) ↦{fullShare} V m c main_v4))
      ⊢ (StableHlo.held (Ix := Unit) (Name := ℕ) (U := UR sig nD τ) (Lvl := ℕ) (c.tc : Thread nD τ) tailSet (Wexit m c) : sProp 𝕄) := by
  rw [held_tailSet, Wexit_v2, Wexit_ne m c main_v3 (by decide), Wexit_ne m c main_cst (by decide), Wexit_ne m c main_v4 (by decide)]

theorem held_out (c : Dev nD) :
    (StableHlo.held (Ix := Unit) (Name := ℕ) (U := UR sig nD τ) (Lvl := ℕ) (c.tc : Thread nD τ) tailSet (StableHlo.after (List.flatten [hostOps1]) (Wexit m c)) : sProp 𝕄)
      ⊢ iprop((((c : Thread nD τ).loc main_v2) ↦{fullShare} (dats m 0 c).arrAt 4 cfg0.N) ∗ (((c : Thread nD τ).loc main_v3) ↦{fullShare} Wend m c main_v3)
          ∗ (((c : Thread nD τ).loc main_cst) ↦{fullShare} Wend m c main_cst) ∗ (((c : Thread nD τ).loc main_v4) ↦{fullShare} Wend m c main_v4)) := by
  rw [held_tailSet, tail_v2, Wexit_v2]
  exact .rfl

theorem Wend_arg0 (c : Dev nD) : Wend m c main_arg0 = V m c main_arg0 := by
  unfold Wend
  rw [StableHlo.after_of_forall_not_mem, Wexit_ne m c main_arg0 (by decide)]
  intro op hop
  simp only [hostOps1, List.flatten_cons, List.flatten_nil, List.append_nil, List.mem_cons, List.mem_nil_iff, or_false] at hop
  rcases hop with rfl | rfl | rfl <;> simp only [StableHlo.reshape_writes, StableHlo.nullary_writes, StableHlo.binary_writes, Finset.mem_singleton] <;> exact StableHlo.devRef_ne_of_ne (by decide)

theorem Wend_arg1 (c : Dev nD) : Wend m c main_arg1 = V m c main_arg1 := by
  unfold Wend
  rw [StableHlo.after_of_forall_not_mem, Wexit_ne m c main_arg1 (by decide)]
  intro op hop
  simp only [hostOps1, List.flatten_cons, List.flatten_nil, List.append_nil, List.mem_cons, List.mem_nil_iff, or_false] at hop
  rcases hop with rfl | rfl | rfl <;> simp only [StableHlo.reshape_writes, StableHlo.nullary_writes, StableHlo.binary_writes, Finset.mem_singleton] <;> exact StableHlo.devRef_ne_of_ne (by decide)

theorem Wend_v4 (c : Dev nD) : Wend m c main_v4
    = Host.divf (shapeCast S_ ((dats m 0 c).arrAt 4 cfg0.N) shapeCasts_S1x1_S_) (constant S_ .f32 0x42F80000#32) := by
  unfold Wend; rw [tail_v4, Wexit_v2]

/-- The three operations after the region, run from the region's exit: they read the accumulated cell, write their own
    three buffers and leave everything else, the arrays' shares included, as it was. -/
theorem htail (c : Dev nD) (Q' : PUnit → sProp 𝕄) :
    iprop((iprop((dats m 0 c).arrays ((dats m 0 c).arrAt · cfg0.N) ∗ Pipeline.unscopedRestP Pipeline.Prefetch.none spec0 c (Wend m c)) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0]
  simp only [View.set_whole, share4]
  iintro ⟨Hk, Hb, ⟨A0, A1, A2, A3, A4⟩, ⟨Ra0, Ra1, R3, Rc, R4⟩⟩
  ihave Hh := (held_in m c) $$ [A4 R3 Rc R4]
  · isplitl [A4]; · iexact A4
    isplitl [R3]; · iexact R3
    isplitl [Rc]; · iexact Rc
    iexact R4
  ihave Hw := (Pipeline.wp_seqs_then (fun q => (cfgs q).toPCfg (Val := Elt F)) defs₀ Variants.none c tailSet [] [hostOps1] hostOps1_in_tailSet hostOps1_fresh' (Wexit m c)) $$ [Hb Hh]
  · isplitl [Hb] <;> iassumption
  iapply Hw
  iintro ⟨Hb, Hh⟩
  rw [Pipeline.chain_nil, wp_pure]
  imodintro
  ihave Hh' := (held_out m c) $$ Hh
  icases Hh' with ⟨A4, R3, Rc, R4⟩
  iapply Hk
  isplitl [A0 A1 A2 A3 A4]
  · isplitl [A0]; · iexact A0
    isplitl [A1]; · iexact A1
    isplitl [A2]; · iexact A2
    isplitl [A3]; · iexact A3
    iexact A4
  · rw [Wend_arg0, Wend_arg1]
    isplitl [Ra0]; · iexact Ra0
    isplitl [Ra1]; · iexact Ra1
    isplitl [R3]; · iexact R3
    isplitl [Rc]; · iexact Rc
    iexact R4

/-! ## The arrays dealt to the windows -/

theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2)) := by
  unfold Pipeline.arrBufs
  exact bigSep_eq_bigSepL_of_eq [main_v0, main_v1, main_v2] (by decide) (by decide) _

theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  simp only [View.set_whole, share0, share1, share2, share3, share4]
  rw [show (dats m 0 c).arrAt 0 0 = V m c main_v0 from A_eq m c 0, show (dats m 0 c).arrAt 1 0 = V m c main_v0 from A_eq m c 1,
    show (dats m 0 c).arrAt 2 0 = V m c main_v1 from A_eq m c 2, show (dats m 0 c).arrAt 3 0 = V m c main_v1 from A_eq m c 3,
    show (dats m 0 c).arrAt 4 0 = V m c main_v2 from A_eq m c 4]
  iintro ⟨H0, H1, H2⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  iexact H2

/-! ## The run -/

theorem mem_rest (b : Ref sig .tc) (hs : b.isScoped = false) (ha : ∀ w, (spec0 w).arr.view.ref ≠ b) :
    b ∈ Pipeline.restRefsP sig (Pipeline.Prefetch.none (sig := sig)) spec0 :=
  Finset.mem_sdiff.mpr ⟨Pipeline.mem_restRefs_of b hs ha, fun h => by
    obtain ⟨k, -, -⟩ := Finset.mem_image.mp h; exact k.elim0⟩

set_option backward.isDefEq.respectTransparency.types false in
/-- From any memory with zero counters every weakly fair execution of the program terminates, with the result at the
    accumulated cell's contents divided by 124 and the two arguments as they were — given the body's obligation at
    every grid point. The first input array is lent to its two windows by halves, and so is the second. -/
theorem run_main (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v4)
          = Host.divf (shapeCast S_ ((dats m 0 c).arrAt 4 cfg0.N) shapeCasts_S1x1_S_) (constant S_ .f32 0x42F80000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) ()
    cellOf_inj (0 : Fin 1) winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig (Pipeline.Prefetch.none (sig := sig)) spec0, s.mem ((c.tc : Thread nD τ).loc b) = Wend m c b)
    (hY := fun c s' => by
      iintro ⟨-, HU, HSI⟩
      unfold Pipeline.unscopedRestP
      imodintro
      iapply (pointsTo_read_all (Pipeline.restRefsP sig (Pipeline.Prefetch.none (sig := sig)) spec0) (fun b => (c.tc : Thread nD τ).loc b) (Wend m c) s')
      isplitl [HU] <;> iassumption)
    (hQ := fun s h c =>
      ⟨((h c).2.2 main_v4 (mem_rest main_v4 rfl (by decide))).trans (Wend_v4 m c),
       ((h c).2.2 main_arg0 (mem_rest main_arg0 rfl (by decide))).trans ((Wend_arg0 m c).trans (V_main_arg0 m c)),
       ((h c).2.2 main_arg1 (mem_rest main_arg1 rfl (by decide))).trans ((Wend_arg1 m c).trans (V_main_arg1 m c))⟩)

end Cert.KernelIdeal.Hand
end
-- ==== Proof.Spec.lean ====
/-
  What both programs compute, as one function of the two input arrays over the extended reals.

  The inputs are two sequences of 32 single-channel 518 × 518 frames for each of 4 batches. For every batch
  `b`, every pair of consecutive frames `(n, n + 1)` and every pixel `(h, w)` take the absolute temporal
  difference of each sequence, `|P[b,n,h,w] − P[b,n+1,h,w]|` and `|Y[b,n,h,w] − Y[b,n+1,h,w]|`, and then the
  absolute difference of those two. The loss is the sum of these `4 · 31 · 518 · 518` terms divided by
  `4 · 31 = 124`: the mean over the batches of each batch's sum divided by its `31` frame pairs.
-/
import Idealize.ShloMosaic.PureOps.Ideal
import Idealize.ShloMosaic.Lib.ValueIdx

noncomputable section

namespace Cert.Spec

open Idealize.ShloMosaic Idealize.ShloMosaic.ValueIdx
open scoped BigOperators

/-- The inputs' shape: batches × frames × one channel × rows × columns. -/
abbrev SIn : Shape := ⟨5, ![4, 32, 1, 518, 518]⟩

/-- The absolute value on the extended reals (`|±∞| = +∞`). -/
def eabs (x : EReal) : EReal := max x (-x)

theorem eabs_nonneg (x : EReal) : 0 ≤ eabs x := by
  unfold eabs
  rcases le_total 0 x with h | h
  · exact le_max_of_le_left h
  · exact le_max_of_le_right (by simpa using EReal.neg_le_neg_iff.mpr h)

/-- One pixel's term for the frame pair `(n, n + 1)` of batch `b`. -/
def term (P Y : SIn.Idx → EReal) (b : Fin 4) (n : Fin 31) (h w : Fin 518) : EReal :=
  eabs (eabs (P (ix5 b n.castSucc (0 : Fin 1) h w) - P (ix5 b n.succ (0 : Fin 1) h w))
    - eabs (Y (ix5 b n.castSucc (0 : Fin 1) h w) - Y (ix5 b n.succ (0 : Fin 1) h w)))

theorem term_nonneg (P Y : SIn.Idx → EReal) (b : Fin 4) (n : Fin 31) (h w : Fin 518) : 0 ≤ term P Y b n h w :=
  eabs_nonneg _

/-- A frame pair's sum over its pixels, rows outermost. -/
def tile (P Y : SIn.Idx → EReal) (b : Fin 4) (n : Fin 31) : EReal :=
  ∑ h : Fin 518, ∑ w : Fin 518, term P Y b n h w

theorem tile_nonneg (P Y : SIn.Idx → EReal) (b : Fin 4) (n : Fin 31) : 0 ≤ tile P Y b n :=
  Finset.sum_nonneg fun _ _ => Finset.sum_nonneg fun _ _ => term_nonneg P Y b n _ _

/-- The grand total over batches and frame pairs. -/
def total (P Y : SIn.Idx → EReal) : EReal := ∑ b : Fin 4, ∑ n : Fin 31, tile P Y b n

/-- The loss: the grand total divided by the number of frame pairs of all batches, `4 · 31 = 124`. -/
def loss (P Y : SIn.Idx → EReal) : EReal := total P Y * ((1 / 124 : ℝ) : EReal)

end Cert.Spec

end
-- ==== Proof.Consts.lean ====
/-
  The float constants the two programs spell, as the extended reals their bit patterns denote in the
  exact-arithmetic reading of floats: positive zero is `0`, and the three divisors are the reals `31` (frame
  pairs per batch), `4` (batches) and `124 = 4 · 31` (frame pairs of all batches).
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `31.0 = 1.9375 · 2⁴` denotes the real `31`. -/
theorem ofBits_31 : Ideal.ofBits .f32 0x41F80000#32 = ((31 : ℝ) : EReal) := by
  simp [Ideal.ofBits, Ideal.ieee, -EReal.coe_mul]; norm_num

/-- `4.0 = 1 · 2²` denotes the real `4`. -/
theorem ofBits_4 : Ideal.ofBits .f32 0x40800000#32 = ((4 : ℝ) : EReal) := by
  simp [Ideal.ofBits, Ideal.ieee, -EReal.coe_mul]; norm_num

/-- `124.0 = 1.9375 · 2⁶` denotes the real `124`. -/
theorem ofBits_124 : Ideal.ofBits .f32 0x42F80000#32 = ((124 : ℝ) : EReal) := by
  simp [Ideal.ofBits, Ideal.ieee, -EReal.coe_mul]; norm_num

end Cert.Consts

end
-- ==== Proof.KI.PayValue.lean ====
/-
  The two values the body stores into the accumulator cell, read over the extended reals. The reset stores zero.
  The update stores the cell's old value plus the sum, rows outermost and columns innermost, over the
  518 × 518 pixels of | |x0 − x1| − |x2 − x3| |, where x0 … x3 are the four input blocks: each block is viewed as a
  518 × 518 matrix, the pixel terms are summed along every row, the column of row sums is summed, and the one
  resulting number is added to the old value. The sums start from nothing: a sum over the extended reals has no
  initial term.
-/
import proofs.«159468_j38036230373449_1_alg».proof.Proof.Gen.KernelIdeal.Skeleton
import proofs.«159468_j38036230373449_1_alg».proof.Proof.Spec
import proofs.«159468_j38036230373449_1_alg».proof.Proof.Consts
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The reset -/

/-- The reset's value is zero at the cell's one index. -/
theorem pay1_apply (j : S1x1.Idx) : (k0_pay1 (F := Ideal)) j = 0 := by
  show Ideal.ofBits .f32 0x00000000#32 = 0
  exact Cert.Consts.ofBits_zero

/-! ## One pixel -/

/-- One pixel's term of four blocks: the absolute difference of the two absolute differences. -/
def pix (x0 x1 x2 x3 : Vec Ideal S1x1x518x518 .f32) (h w : Fin 518) : EReal :=
  Cert.Spec.eabs (Cert.Spec.eabs (x0 (ix4 (0 : Fin 1) (0 : Fin 1) h w) - x1 (ix4 (0 : Fin 1) (0 : Fin 1) h w))
    - Cert.Spec.eabs (x2 (ix4 (0 : Fin 1) (0 : Fin 1) h w) - x3 (ix4 (0 : Fin 1) (0 : Fin 1) h w)))

/-- A block viewed as a matrix reads, at row h and column w, the block's entry (0, 0, h, w): the two indices have
    the same position in row-major order. -/
theorem block_as_matrix (x : FVec Ideal S1x1x518x518 .f32) (hc : S1x1x518x518.ShapeCasts S518x518) (h w : Fin 518) :
    shapeCast S518x518 x hc (ix2 h w) = x (ix4 (0 : Fin 1) (0 : Fin 1) h w) :=
  shapeCast_apply x hc _ _ (by
    rw [Shape.rowMajor_val_four, Shape.rowMajor_val_two]
    show ((0 * 1 + 0) * 518 + h.val) * 518 + w.val = h.val * 518 + w.val
    omega)

/-- The matrix of pixel terms, entry by entry. -/
theorem pix_matrix (x0 x1 x2 x3 : FVec Ideal S1x1x518x518 .f32) (hc : S1x1x518x518.ShapeCasts S518x518) (h w : Fin 518) :
    absf (F := Ideal) (φ := .f32) (subf (F := Ideal) (φ := .f32)
      (absf (F := Ideal) (φ := .f32) (subf (F := Ideal) (φ := .f32) (shapeCast S518x518 x0 hc) (shapeCast S518x518 x1 hc)))
      (absf (F := Ideal) (φ := .f32) (subf (F := Ideal) (φ := .f32) (shapeCast S518x518 x2 hc) (shapeCast S518x518 x3 hc))))
      (ix2 h w) = pix x0 x1 x2 x3 h w := by
  show Cert.Spec.eabs (Cert.Spec.eabs (shapeCast S518x518 x0 hc (ix2 h w) - shapeCast S518x518 x1 hc (ix2 h w))
    - Cert.Spec.eabs (shapeCast S518x518 x2 hc (ix2 h w) - shapeCast S518x518 x3 hc (ix2 h w))) = _
  rw [block_as_matrix, block_as_matrix, block_as_matrix, block_as_matrix]
  rfl

/-! ## The two sums and the casts between them -/

/-- Summing a matrix along its rows: at row r, the sum over the columns. -/
theorem row_sums (v : FVec Ideal S518x518 .f32) (hr : S518x518.Reduces [1] S518) (hφ : FKind.Formats .f32)
    (hacc : (0x00000000#32 : BitVec 32) = FKind.add.neutral .f32 hφ) (r : Fin 518) :
    multiReduction (F := Ideal) .add [1] S518 v 0x00000000#32 hr hφ hacc (ix1 r) = ∑ w : Fin 518, v (ix2 r w) := by
  refine (Ideal.multiReduction_add_single v _ hr hφ hacc (ix1 r)).trans ?_
  show ∑ k : Fin 518, v (hr.lift (ix1 r) k) = _
  refine Finset.sum_congr rfl fun w _ => congrArg v ?_
  funext a
  apply Fin.ext
  match a with
  | ⟨0, _⟩ => rfl
  | ⟨1, _⟩ => rfl

/-- A vector viewed as a one-column matrix reads, at (r, u), the vector's entry r. -/
theorem vector_as_column (v : FVec Ideal S518 .f32) (hc : S518.ShapeCasts S518x1) (r : Fin 518) (u : Fin 1) :
    shapeCast S518x1 v hc (ix2 r u) = v (ix1 r) :=
  shapeCast_apply v hc _ _ (by
    have hu : u.val = 0 := by omega
    rw [Shape.rowMajor_val_two, Shape.rowMajor_val_one]
    show r.val = r.val * 1 + u.val
    omega)

/-- Summing a one-column matrix down its column: the sum over the rows. -/
theorem column_sum (v : FVec Ideal S518x1 .f32) (hr : S518x1.Reduces [0] S1) (hφ : FKind.Formats .f32)
    (hacc : (0x00000000#32 : BitVec 32) = FKind.add.neutral .f32 hφ) (u : Fin 1) :
    multiReduction (F := Ideal) .add [0] S1 v 0x00000000#32 hr hφ hacc (ix1 u) = ∑ r : Fin 518, v (ix2 r u) := by
  refine (Ideal.multiReduction_add_single v _ hr hφ hacc (ix1 u)).trans ?_
  show ∑ k : Fin 518, v (hr.lift (ix1 u) k) = _
  refine Finset.sum_congr rfl fun r _ => congrArg v ?_
  funext a
  apply Fin.ext
  match a with
  | ⟨0, _⟩ => rfl
  | ⟨1, _⟩ => rfl

/-- A one-entry vector viewed as a 1 × 1 matrix reads that entry. -/
theorem scalar_as_cell (v : FVec Ideal S1 .f32) (hc : S1.ShapeCasts S1x1) (u u' : Fin 1) :
    shapeCast S1x1 v hc (ix2 u u') = v (ix1 u') :=
  shapeCast_a_1a_apply v hc u u'

/-! ## The update -/

/-- The update's value: the old value plus the sum of the pixel terms, rows outermost. -/
theorem pay2_apply (x0 x1 x2 x3 : Vec Ideal S1x1x518x518 .f32) (xo : Vec Ideal S1x1 .f32) (u u' : Fin 1) :
    k0_pay2 x0 x1 x2 x3 xo (ix2 u u') = xo (ix2 u u') + ∑ h : Fin 518, ∑ w : Fin 518, pix x0 x1 x2 x3 h w := by
  unfold k0_pay2
  refine congrArg₂ (· + ·) (congrFun (shapeCast_self xo _) _) ?_
  refine (scalar_as_cell _ _ u u').trans ?_
  refine (column_sum _ _ _ _ u').trans ?_
  refine Finset.sum_congr rfl fun r _ => ?_
  refine (vector_as_column _ _ r u').trans ?_
  refine (row_sums _ _ _ _ r).trans ?_
  exact Finset.sum_congr rfl fun w _ => pix_matrix x0 x1 x2 x3 _ r w

end Cert.KernelIdeal.Hand

end
-- ==== Proof.KI.BlockValue.lean ====
/-
  What the four input windows hold at a grid point, entry by entry. The grid is 4 × 31 in row-major order, so the
  point t = 31 b + n has coordinates (b, n). There the first window holds frame n of batch b of the first argument,
  the second window frame n + 1 of the same batch, and the third and fourth windows the same two frames of the second
  argument. A window's block sits in its array, on each axis, at the block index times the block's size plus the
  coordinate inside the block; the block indices are (b, n, 0, 0) or (b, n + 1, 0, 0) and the blocks are
  1 × 1 × 518 × 518, so entry (0, 0, h, w) of the block is entry (b, n, h, w) or (b, n + 1, h, w) of the array. The
  arrays the windows read are the arguments with their unit channel axis dropped, which moves no entry.
-/
import proofs.«159468_j38036230373449_1_alg».proof.Proof.KI.Acc
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-! ## The arrays the windows read -/

/-- The first array as the region finds it: the first argument with its unit channel axis dropped. -/
theorem V_main_v0 (c : Dev nD) :
    (V m c main_v0 : S4x32x518x518.Idx → Ideal .f32)
      = shapeCast S4x32x518x518 (m ((c : Thread nD τ).loc main_arg0)) shapeCasts_S4x32x1x518x518_S4x32x518x518 := by
  dsimp only [V, V0]
  simp only [hostOps0, List.flatten_cons, List.flatten_nil, List.append_nil]
  after_results
  rfl

/-- The second array as the region finds it: the second argument with its unit channel axis dropped. -/
theorem V_main_v1 (c : Dev nD) :
    (V m c main_v1 : S4x32x518x518.Idx → Ideal .f32)
      = shapeCast S4x32x518x518 (m ((c : Thread nD τ).loc main_arg1)) shapeCasts_S4x32x1x518x518_S4x32x518x518 := by
  dsimp only [V, V0]
  simp only [hostOps0, List.flatten_cons, List.flatten_nil, List.append_nil]
  after_results
  rfl

/-- Dropping the unit channel axis keeps every entry: (b, n, h, w) reads (b, n, 0, h, w), the index with the same
    position in row-major order. -/
theorem drop_channel {α : Type} (X : S4x32x1x518x518.Idx → α) (hc : S4x32x1x518x518.ShapeCasts S4x32x518x518)
    (b : Fin 4) (n : Fin 32) (h w : Fin 518) :
    shapeCast S4x32x518x518 X hc (ix4 b n h w) = X (ix5 b n (0 : Fin 1) h w) :=
  shapeCast_apply X hc _ _ (by
    rw [Shape.rowMajor_val_five, Shape.rowMajor_val_four]
    show (((b.val * 32 + n.val) * 1 + 0) * 518 + h.val) * 518 + w.val = ((b.val * 32 + n.val) * 518 + h.val) * 518 + w.val
    omega)

/-! ## The block indices over the grid

At the point t the four windows' block indices are the batch t / 31, the frame t % 31 (first and third window) or
the next frame t % 31 + 1 (second and fourth), and zero on the two pixel axes. -/

theorem idx0 : ∀ t : Fin cfg0.N, win0_0.index t (0 : Fin 4) = t.val / 31 ∧ win0_0.index t (1 : Fin 4) = t.val % 31
      ∧ win0_0.index t (2 : Fin 4) = 0 ∧ win0_0.index t (3 : Fin 4) = 0 :=
  (by decide +kernel : ∀ t : Fin grid0.N, win0_0.index t (0 : Fin 4) = t.val / 31 ∧ win0_0.index t (1 : Fin 4) = t.val % 31
      ∧ win0_0.index t (2 : Fin 4) = 0 ∧ win0_0.index t (3 : Fin 4) = 0)
theorem idx1 : ∀ t : Fin cfg0.N, win0_1.index t (0 : Fin 4) = t.val / 31 ∧ win0_1.index t (1 : Fin 4) = t.val % 31 + 1
      ∧ win0_1.index t (2 : Fin 4) = 0 ∧ win0_1.index t (3 : Fin 4) = 0 :=
  (by decide +kernel : ∀ t : Fin grid0.N, win0_1.index t (0 : Fin 4) = t.val / 31 ∧ win0_1.index t (1 : Fin 4) = t.val % 31 + 1
      ∧ win0_1.index t (2 : Fin 4) = 0 ∧ win0_1.index t (3 : Fin 4) = 0)
theorem idx2 : ∀ t : Fin cfg0.N, win0_2.index t (0 : Fin 4) = t.val / 31 ∧ win0_2.index t (1 : Fin 4) = t.val % 31
      ∧ win0_2.index t (2 : Fin 4) = 0 ∧ win0_2.index t (3 : Fin 4) = 0 :=
  (by decide +kernel : ∀ t : Fin grid0.N, win0_2.index t (0 : Fin 4) = t.val / 31 ∧ win0_2.index t (1 : Fin 4) = t.val % 31
      ∧ win0_2.index t (2 : Fin 4) = 0 ∧ win0_2.index t (3 : Fin 4) = 0)
theorem idx3 : ∀ t : Fin cfg0.N, win0_3.index t (0 : Fin 4) = t.val / 31 ∧ win0_3.index t (1 : Fin 4) = t.val % 31 + 1
      ∧ win0_3.index t (2 : Fin 4) = 0 ∧ win0_3.index t (3 : Fin 4) = 0 :=
  (by decide +kernel : ∀ t : Fin grid0.N, win0_3.index t (0 : Fin 4) = t.val / 31 ∧ win0_3.index t (1 : Fin 4) = t.val % 31 + 1
      ∧ win0_3.index t (2 : Fin 4) = 0 ∧ win0_3.index t (3 : Fin 4) = 0)

/-! ## The blocks, entry by entry -/

/-- The first window at the point 31 b + n: frame n of batch b of the first argument. -/
theorem iblk0_apply (c : Dev nD) (t : Fin cfg0.N) (b : Fin 4) (n : Fin 31) (ht : t.val = 31 * b.val + n.val) (h w : Fin 518) :
    (iblk m c 0 t : Vec Ideal S1x1x518x518 .f32) (ix4 (0 : Fin 1) (0 : Fin 1) h w)
      = m ((c : Thread nD τ).loc main_arg0) (ix5 b n.castSucc (0 : Fin 1) h w) := by
  obtain ⟨i0, i1, i2, i3⟩ := idx0 t
  have hb := b.isLt
  have hn := n.isLt
  unfold iblk
  rw [View.read_apply]
  show V m c main_v0 (((cfg0.win 0).blk t).view.emb (ix4 (0 : Fin 1) (0 : Fin 1) h w)) = _
  have hi : ((cfg0.win 0).blk t).view.emb (ix4 (0 : Fin 1) (0 : Fin 1) h w) = (ix4 b n.castSucc h w : S4x32x518x518.Idx) := by
    funext a
    apply Fin.ext
    match a with
    | ⟨0, _⟩ => show win0_0.index t (0 : Fin 4) * 1 + 1 * 0 = b.val; rw [i0]; omega
    | ⟨1, _⟩ => show win0_0.index t (1 : Fin 4) * 1 + 1 * 0 = n.val; rw [i1]; omega
    | ⟨2, _⟩ => show win0_0.index t (2 : Fin 4) * 518 + 1 * h.val = h.val; rw [i2]; omega
    | ⟨3, _⟩ => show win0_0.index t (3 : Fin 4) * 518 + 1 * w.val = w.val; rw [i3]; omega
  rw [hi]
  exact (congrFun (V_main_v0 m c) _).trans (drop_channel _ _ b n.castSucc h w)

/-- The second window at the point 31 b + n: frame n + 1 of batch b of the first argument. -/
theorem iblk1_apply (c : Dev nD) (t : Fin cfg0.N) (b : Fin 4) (n : Fin 31) (ht : t.val = 31 * b.val + n.val) (h w : Fin 518) :
    (iblk m c 1 t : Vec Ideal S1x1x518x518 .f32) (ix4 (0 : Fin 1) (0 : Fin 1) h w)
      = m ((c : Thread nD τ).loc main_arg0) (ix5 b n.succ (0 : Fin 1) h w) := by
  obtain ⟨i0, i1, i2, i3⟩ := idx1 t
  have hb := b.isLt
  have hn := n.isLt
  unfold iblk
  rw [View.read_apply]
  show V m c main_v0 (((cfg0.win 1).blk t).view.emb (ix4 (0 : Fin 1) (0 : Fin 1) h w)) = _
  have hi : ((cfg0.win 1).blk t).view.emb (ix4 (0 : Fin 1) (0 : Fin 1) h w) = (ix4 b n.succ h w : S4x32x518x518.Idx) := by
    funext a
    apply Fin.ext
    match a with
    | ⟨0, _⟩ => show win0_1.index t (0 : Fin 4) * 1 + 1 * 0 = b.val; rw [i0]; omega
    | ⟨1, _⟩ => show win0_1.index t (1 : Fin 4) * 1 + 1 * 0 = n.val + 1; rw [i1]; omega
    | ⟨2, _⟩ => show win0_1.index t (2 : Fin 4) * 518 + 1 * h.val = h.val; rw [i2]; omega
    | ⟨3, _⟩ => show win0_1.index t (3 : Fin 4) * 518 + 1 * w.val = w.val; rw [i3]; omega
  rw [hi]
  exact (congrFun (V_main_v0 m c) _).trans (drop_channel _ _ b n.succ h w)

/-- The third window at the point 31 b + n: frame n of batch b of the second argument. -/
theorem iblk2_apply (c : Dev nD) (t : Fin cfg0.N) (b : Fin 4) (n : Fin 31) (ht : t.val = 31 * b.val + n.val) (h w : Fin 518) :
    (iblk m c 2 t : Vec Ideal S1x1x518x518 .f32) (ix4 (0 : Fin 1) (0 : Fin 1) h w)
      = m ((c : Thread nD τ).loc main_arg1) (ix5 b n.castSucc (0 : Fin 1) h w) := by
  obtain ⟨i0, i1, i2, i3⟩ := idx2 t
  have hb := b.isLt
  have hn := n.isLt
  unfold iblk
  rw [View.read_apply]
  show V m c main_v1 (((cfg0.win 2).blk t).view.emb (ix4 (0 : Fin 1) (0 : Fin 1) h w)) = _
  have hi : ((cfg0.win 2).blk t).view.emb (ix4 (0 : Fin 1) (0 : Fin 1) h w) = (ix4 b n.castSucc h w : S4x32x518x518.Idx) := by
    funext a
    apply Fin.ext
    match a with
    | ⟨0, _⟩ => show win0_2.index t (0 : Fin 4) * 1 + 1 * 0 = b.val; rw [i0]; omega
    | ⟨1, _⟩ => show win0_2.index t (1 : Fin 4) * 1 + 1 * 0 = n.val; rw [i1]; omega
    | ⟨2, _⟩ => show win0_2.index t (2 : Fin 4) * 518 + 1 * h.val = h.val; rw [i2]; omega
    | ⟨3, _⟩ => show win0_2.index t (3 : Fin 4) * 518 + 1 * w.val = w.val; rw [i3]; omega
  rw [hi]
  exact (congrFun (V_main_v1 m c) _).trans (drop_channel _ _ b n.castSucc h w)

/-- The fourth window at the point 31 b + n: frame n + 1 of batch b of the second argument. -/
theorem iblk3_apply (c : Dev nD) (t : Fin cfg0.N) (b : Fin 4) (n : Fin 31) (ht : t.val = 31 * b.val + n.val) (h w : Fin 518) :
    (iblk m c 3 t : Vec Ideal S1x1x518x518 .f32) (ix4 (0 : Fin 1) (0 : Fin 1) h w)
      = m ((c : Thread nD τ).loc main_arg1) (ix5 b n.succ (0 : Fin 1) h w) := by
  obtain ⟨i0, i1, i2, i3⟩ := idx3 t
  have hb := b.isLt
  have hn := n.isLt
  unfold iblk
  rw [View.read_apply]
  show V m c main_v1 (((cfg0.win 3).blk t).view.emb (ix4 (0 : Fin 1) (0 : Fin 1) h w)) = _
  have hi : ((cfg0.win 3).blk t).view.emb (ix4 (0 : Fin 1) (0 : Fin 1) h w) = (ix4 b n.succ h w : S4x32x518x518.Idx) := by
    funext a
    apply Fin.ext
    match a with
    | ⟨0, _⟩ => show win0_3.index t (0 : Fin 4) * 1 + 1 * 0 = b.val; rw [i0]; omega
    | ⟨1, _⟩ => show win0_3.index t (1 : Fin 4) * 1 + 1 * 0 = n.val + 1; rw [i1]; omega
    | ⟨2, _⟩ => show win0_3.index t (2 : Fin 4) * 518 + 1 * h.val = h.val; rw [i2]; omega
    | ⟨3, _⟩ => show win0_3.index t (3 : Fin 4) * 518 + 1 * w.val = w.val; rw [i3]; omega
  rw [hi]
  exact (congrFun (V_main_v1 m c) _).trans (drop_channel _ _ b n.succ h w)

end Cert.KernelIdeal.Hand

end
-- ==== Proof.KI.AccValue.lean ====
/-
  The accumulator cell, point by point. At the grid point t = 31 b + n the four blocks are frames n and n + 1 of
  batch b of the two arguments, so the pixel sum the body adds there is the frame pair's sum over its pixels. The
  cell is reset to zero at the first point, hence after the point t it holds the sum of the frame-pair sums of
  the points 0 … t. The 124 points enumerate the pairs (b, n) of 4 batches and 31 frame pairs in row-major
  order, so after the last point the cell holds the grand total over batches and frame pairs.
-/
import proofs.«159468_j38036230373449_1_alg».proof.Proof.KI.PayValue
import proofs.«159468_j38036230373449_1_alg».proof.Proof.KI.BlockValue
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-- The frame-pair sum the grid's point s adds: batch s / 31, frame pair s % 31. -/
def pointTile (P Y : Cert.Spec.SIn.Idx → EReal) (s : ℕ) : EReal :=
  Cert.Spec.tile P Y ⟨s / 31 % 4, Nat.mod_lt _ (by decide)⟩ ⟨s % 31, Nat.mod_lt _ (by decide)⟩

/-- The pixel sum of the four blocks at the point 31 b + n is the sum of the frame pair (b, n). -/
theorem point_tile (c : Dev nD) (t : Fin cfg0.N) (b : Fin 4) (n : Fin 31) (ht : t.val = 31 * b.val + n.val) :
    ∑ h : Fin 518, ∑ w : Fin 518, pix (iblk m c 0 t) (iblk m c 1 t) (iblk m c 2 t) (iblk m c 3 t) h w
      = Cert.Spec.tile (m ((c : Thread nD τ).loc main_arg0)) (m ((c : Thread nD τ).loc main_arg1)) b n := by
  unfold Cert.Spec.tile
  refine Finset.sum_congr rfl fun h _ => Finset.sum_congr rfl fun w _ => ?_
  unfold pix Cert.Spec.term
  rw [iblk0_apply m c t b n ht h w, iblk1_apply m c t b n ht h w, iblk2_apply m c t b n ht h w,
    iblk3_apply m c t b n ht h w]

/-- After the point k the cell holds the sum of the frame-pair sums of the points 0 … k. -/
theorem accAt_eq (c : Dev nD) : ∀ (k : ℕ) (hk : k < cfg0.N),
    accAt m c k hk (ix2 (0 : Fin 1) (0 : Fin 1))
      = ∑ s ∈ Finset.range (k + 1), pointTile (m ((c : Thread nD τ).loc main_arg0)) (m ((c : Thread nD τ).loc main_arg1)) s
  | 0, hk => by
    refine (congrFun (accAt_zero m c hk) _).trans ?_
    refine (pay2_apply (iblk m c 0 ⟨0, hk⟩) (iblk m c 1 ⟨0, hk⟩) (iblk m c 2 ⟨0, hk⟩) (iblk m c 3 ⟨0, hk⟩)
      (k0_pay1 (F := Ideal)) 0 0).trans ?_
    rw [pay1_apply, zero_add, Finset.sum_range_one]
    exact point_tile m c ⟨0, hk⟩ 0 0 rfl
  | k + 1, hk => by
    have hN : cfg0.N = 124 := N_0
    refine (congrFun (accAt_succ m c k hk) _).trans ?_
    refine (pay2_apply (iblk m c 0 ⟨k + 1, hk⟩) (iblk m c 1 ⟨k + 1, hk⟩) (iblk m c 2 ⟨k + 1, hk⟩) (iblk m c 3 ⟨k + 1, hk⟩)
      (accAt m c k (Nat.lt_of_succ_lt hk)) 0 0).trans ?_
    rw [accAt_eq c k (Nat.lt_of_succ_lt hk), Finset.sum_range_succ _ (k + 1)]
    refine congrArg₂ (· + ·) rfl ?_
    exact point_tile m c ⟨k + 1, hk⟩ ⟨(k + 1) / 31 % 4, Nat.mod_lt _ (by decide)⟩ ⟨(k + 1) % 31, Nat.mod_lt _ (by decide)⟩
      (by show k + 1 = 31 * ((k + 1) / 31 % 4) + (k + 1) % 31; omega)

/-- The 124 points enumerate the 4 × 31 frame pairs: their sums add up to the grand total. -/
theorem sum_pointTile (P Y : Cert.Spec.SIn.Idx → EReal) :
    ∑ s ∈ Finset.range 124, pointTile P Y s = Cert.Spec.total P Y := by
  unfold Cert.Spec.total
  rw [Finset.sum_range, ← Fintype.sum_prod_type' (fun b n => Cert.Spec.tile P Y b n)]
  refine Fintype.sum_equiv (finProdFinEquiv (m := 4) (n := 31)).symm _ _ fun s => ?_
  show pointTile P Y s.val = Cert.Spec.tile P Y s.divNat s.modNat
  have hs : s.val < 124 := s.isLt
  unfold pointTile
  refine congrArg₂ (Cert.Spec.tile P Y) (Fin.ext ?_) (Fin.ext ?_)
  · show s.val / 31 % 4 = s.val / 31
    omega
  · rfl

/-- After the last point the cell holds the grand total. -/
theorem accAt_last (c : Dev nD) (h : 123 < cfg0.N) :
    accAt m c 123 h (ix2 (0 : Fin 1) (0 : Fin 1))
      = Cert.Spec.total (m ((c : Thread nD τ).loc main_arg0)) (m ((c : Thread nD τ).loc main_arg1)) :=
  (accAt_eq m c 123 h).trans (sum_pointTile _ _)

end Cert.KernelIdeal.Hand

end
-- ==== Proof.KI.ArrValue.lean ====
/-
  The result array after the region. The output window's block index is (0, 0) at every grid point and its block is
  1 × 1, the size of the whole array: the block at any point is the whole array. The window is written back at the
  last point only, so the array ends holding what the accumulator cell holds after the last point.
-/
import proofs.«159468_j38036230373449_1_alg».proof.Proof.KI.Acc
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-- The output window's block index is zero on both axes at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Reading the output window's block of any contents of the array gives the contents back: an entry of the block
    sits in the array at 0 · 1 plus its own coordinate on each axis. -/
theorem blk4_read (t : Fin cfg0.N) (X : S1x1.Idx → Ideal .f32) :
    ((cfg0.win 4).blk t).view.read (Elt Ideal) X = X := by
  obtain ⟨i0, i1⟩ := idx4 t
  refine funext fun (j : S1x1.Idx) => ?_
  rw [View.read_apply]
  show X (((cfg0.win 4).blk t).view.emb j) = X j
  refine congrArg X (funext fun a => Fin.ext ?_)
  match a with
  | ⟨0, _⟩ => show win0_4.index t (0 : Fin 2) * 1 + 1 * (j 0).val = (j 0).val; rw [i0]; omega
  | ⟨1, _⟩ => show win0_4.index t (1 : Fin 2) * 1 + 1 * (j 1).val = (j 1).val; rw [i1]; omega

/-- Every index of the array lies in the output window's block, at every point. -/
theorem mem_blk4 (t : Fin cfg0.N) (i : S1x1.Idx) : i ∈ ((cfg0.win 4).blk t).view.set := by
  obtain ⟨i0, i1⟩ := idx4 t
  have h0 : (i 0).val < 1 := (i 0).isLt
  have h1 : (i 1).val < 1 := (i 1).isLt
  show i ∈ ((View.whole main_v2).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    rw [i0]; omega
  | ⟨1, _⟩ =>
    show win0_4.index t (1 : Fin 2) * 1 ≤ (i 1).val ∧ (i 1).val < win0_4.index t (1 : Fin 2) * 1 + 1
    rw [i1]; omega

/-- What a write-back of the output window writes: the cell after the last point, since the last point is the only
    one that writes back. -/
theorem flushed4 (c : Dev nD) (h : 123 < cfg0.N) (t : Fin cfg0.N) (hf : (cfg0.win 4).flush t = true) :
    (dats m 0 c).flushed 4 t = ((cfg0.win 4).blk t).view.read (Elt Ideal) (accAt m c 123 h) := by
  have hN : cfg0.N = 124 := N_0
  have h3 : t.val = 123 := by have := (flush0_4 t).mp hf; have := t.isLt; omega
  obtain ⟨k, hk⟩ := t
  obtain rfl : k = 123 := h3
  rw [blk4_read]
  show (cfg0.win 4).cut (grid0.coords ⟨123, hk⟩) ((dats m 0 c).after 4 ⟨123, hk⟩) = _
  rw [after4]
  rfl

/-- The result array after the region holds the accumulator cell after the last point. -/
theorem arr_last (c : Dev nD) (h : 123 < cfg0.N) : (dats m 0 c).arrAt 4 cfg0.N = accAt m c 123 h :=
  (dats m 0 c).arrAt_eq_of_cover 4 (accAt m c 123 h) (flushed4 m c h) fun i =>
    ⟨⟨123, h⟩, (flush0_4 ⟨123, h⟩).mpr rfl, mem_blk4 ⟨123, h⟩ i⟩

end Cert.KernelIdeal.Hand

end
-- ==== Proof.KI.KernelValue.lean ====
/-
  The kernel's result. The host takes the one entry of the 1 × 1 result array as a scalar and divides it by the
  constant 124. The array holds the grand total over the 4 batches and 31 frame pairs, 124 is a nonzero real, and
  over the extended reals dividing by a nonzero real is multiplying by its reciprocal: the result is the loss.
-/
import proofs.«159468_j38036230373449_1_alg».proof.Proof.KI.AccValue
import proofs.«159468_j38036230373449_1_alg».proof.Proof.KI.ArrValue
import proofs.«159468_j38036230373449_1_alg».proof.Proof.Consts
import proofs.«159468_j38036230373449_1_alg».proof.Proof.Spec
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ)

/-- A 1 × 1 array viewed as a scalar reads its one entry: both indices have position zero. -/
theorem cell_as_scalar {α : Type} (X : S1x1.Idx → α) (hc : S1x1.ShapeCasts S_) (j : S_.Idx) :
    shapeCast S_ X hc j = X (ix2 (0 : Fin 1) (0 : Fin 1)) :=
  shapeCast_apply X hc _ _ (by
    have hj : (S_.rowMajor j).val < 1 := (S_.rowMajor j).isLt
    rw [Shape.rowMajor_val_two]
    show 0 * 1 + 0 = (S_.rowMajor j).val
    omega)

/-- The result array after the region holds the grand total at its one entry. -/
theorem arr_total (c : Dev nD) :
    (dats m 0 c).arrAt 4 cfg0.N (ix2 (0 : Fin 1) (0 : Fin 1))
      = Cert.Spec.total (m ((c : Thread nD τ).loc main_arg0)) (m ((c : Thread nD τ).loc main_arg1)) :=
  (congrFun (arr_last m c (by decide)) _).trans (accAt_last m c (by decide))

/-- The kernel's result is the loss of the two argument arrays. -/
theorem kernel_value (c : Dev nD) :
    Host.divf (F := Ideal) (shapeCast S_ ((dats m 0 c).arrAt 4 cfg0.N) shapeCasts_S1x1_S_)
        (constant (F := Ideal) S_ .f32 0x42F80000#32)
      = fun _ => Cert.Spec.loss (m ((c : Thread nD τ).loc main_arg0)) (m ((c : Thread nD τ).loc main_arg1)) := by
  funext j
  show Ideal.div (shapeCast S_ ((dats m 0 c).arrAt 4 cfg0.N) shapeCasts_S1x1_S_ j) (Ideal.ofBits .f32 0x42F80000#32) = _
  rw [cell_as_scalar, arr_total, Cert.Consts.ofBits_124, Ideal.div_coe (by norm_num : (124 : ℝ) ≠ 0)]
  rfl

end Cert.KernelIdeal.Hand

end
-- ==== Proof.RefLaw.lean ====
/-
  The arithmetic law that joins the two programs' normalisations. The reference divides each batch's sum by `31`,
  adds the four quotients up and divides by `4`; the other side divides the grand total by `124 = 4 · 31` once.

  The extended reals are not a semiring: `(a + b) · c = a · c + b · c` can fail when `a` and `b` are infinities
  of opposite signs. It does hold for every `a`, `b` once `c` is a nonnegative REAL (neither infinity), which is
  all the three divisors' reciprocals need; so a finite sum may be multiplied by such a `c` term by term, and
  the two products by reals combine into one.
-/
import proofs.«159468_j38036230373449_1_alg».proof.Proof.Spec
import Mathlib.Data.EReal.Operations
import Mathlib.Algebra.BigOperators.Group.Finset.Basic

noncomputable section

namespace Cert.RefLaw

open scoped BigOperators

/-- A finite sum of extended reals times a nonnegative real is the sum of the products. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Two successive products by reals are the product by the reals' product. -/
theorem mul_coe_mul_coe (x : EReal) (c d : ℝ) : x * (c : EReal) * (d : EReal) = x * ((c * d : ℝ) : EReal) := by
  rw [mul_assoc, ← EReal.coe_mul]

/-- The mean over `4` batches of each batch's sum over `31` is the grand sum over `124`: each starting from zero,
    as the reference's two reductions do. -/
theorem mean_of_means (S : Fin 4 → EReal) :
    (0 + ∑ b, (0 + S b) * ((1 / 31 : ℝ) : EReal)) * ((1 / 4 : ℝ) : EReal)
      = (∑ b, S b) * ((1 / 124 : ℝ) : EReal) := by
  simp only [zero_add]
  rw [← sum_mul_coe Finset.univ S (by norm_num : (0 : ℝ) ≤ 1 / 31), mul_coe_mul_coe]
  norm_num

end Cert.RefLaw

end
-- ==== Proof.RefIndex.lean ====
/-
  Where the reference's layout operations read. The reference flattens each 518 × 518 frame into one axis of
  `268324 = 518 · 518` pixels (row-major: pixel `(h, w)` sits at `h · 518 + w`), drops the unit channel axis, and
  takes the frames `0 … 30` and `1 … 31` as two slices. Read back through those reshapes and slices, the element
  at batch `b`, frame pair `n`, flat pixel `h · 518 + w` of the first slice is the input at
  `(b, n, 0, h, w)` and that of the second slice the input at `(b, n + 1, 0, h, w)`.

  All of it is arithmetic of row-major positions: a position decomposes uniquely into its mixed-radix digits.
-/
import proofs.«159468_j38036230373449_1_alg».proof.Proof.Gen.ReferenceIdeal.Read
import proofs.«159468_j38036230373449_1_alg».proof.Proof.Spec

noncomputable section

namespace Cert.ReferenceIdeal.RefIndex

open Cert.ReferenceIdeal Cert.ReferenceIdeal.Read Idealize.ShloMosaic Idealize.ShloMosaic.ValueIdx

/-- The flat position of pixel `(h, w)` in a row-major 518 × 518 frame. -/
def pix (h w : Fin 518) : Fin 268324 :=
  ⟨h.val * 518 + w.val, by have := h.isLt; have := w.isLt; omega⟩

@[simp] theorem pix_val (h w : Fin 518) : (pix h w).val = h.val * 518 + w.val := rfl

/-- Pixels `(h, w)` and flat positions correspond one to one: a position's row is its quotient by `518`
    and its column the remainder. -/
def pixEquiv : Fin 518 × Fin 518 ≃ Fin 268324 where
  toFun p := pix p.1 p.2
  invFun k := (⟨k.val / 518, by have := k.isLt; omega⟩, ⟨k.val % 518, Nat.mod_lt _ (by norm_num)⟩)
  left_inv p := by
    obtain ⟨h, w⟩ := p
    have := h.isLt; have := w.isLt
    refine Prod.ext (Fin.ext ?_) (Fin.ext ?_)
    · show (h.val * 518 + w.val) / 518 = h.val; omega
    · show (h.val * 518 + w.val) % 518 = w.val; omega
  right_inv k := by
    refine Fin.ext ?_
    show k.val / 518 * 518 + k.val % 518 = k.val; omega

@[simp] theorem pixEquiv_apply (h w : Fin 518) : pixEquiv (h, w) = pix h w := rfl

/-- The slice from frame `0` reads frame `n` of the 32 … -/
theorem idx_slice_lo (b : Fin 4) (n : Fin 31) (k : Fin 268324) :
    idx_main_v4 (ix3 b n k) = ix3 b n.castSucc k := by
  funext a
  match a with
  | ⟨0, _⟩ => rfl
  | ⟨1, _⟩ => rfl
  | ⟨2, _⟩ => rfl

/-- … and the slice from frame `1` reads frame `n + 1`. -/
theorem idx_slice_hi (b : Fin 4) (n : Fin 31) (k : Fin 268324) :
    idx_main_v5 (ix3 b n k) = ix3 b n.succ k := by
  funext a
  match a with
  | ⟨0, _⟩ => rfl
  | ⟨1, _⟩ => exact Fin.ext (by show 1 + n.val = n.val + 1; omega)
  | ⟨2, _⟩ => rfl

/-- Unflattening the pixel axis: position `h · 518 + w` of frame `m` is row `h`, column `w`. -/
theorem idx_unflatten (b : Fin 4) (m : Fin 32) (h w : Fin 518) :
    idx_main_v2 (ix3 b m (pix h w)) = ix4 b m h w := by
  have hb := b.isLt; have hm := m.isLt; have hh := h.isLt; have hw := w.isLt
  funext a
  match a with
  | ⟨0, _⟩ => exact Fin.ext (by
      show ((b.val * 32 + m.val) * 268324 + (h.val * 518 + w.val)) / 8586368 = b.val; omega)
  | ⟨1, _⟩ => exact Fin.ext (by
      show ((b.val * 32 + m.val) * 268324 + (h.val * 518 + w.val)) / 268324 % 32 = m.val; omega)
  | ⟨2, _⟩ => exact Fin.ext (by
      show ((b.val * 32 + m.val) * 268324 + (h.val * 518 + w.val)) / 518 % 518 = h.val; omega)
  | ⟨3, _⟩ => exact Fin.ext (by
      show ((b.val * 32 + m.val) * 268324 + (h.val * 518 + w.val)) % 518 = w.val; omega)

/-- Restoring the unit channel axis: frame `m`, row `h`, column `w` is channel `0` of the input. -/
theorem idx_channel (b : Fin 4) (m : Fin 32) (h w : Fin 518) :
    idx_main_v0 (ix4 b m h w) = ix5 b m (0 : Fin 1) h w := by
  have hb := b.isLt; have hm := m.isLt; have hh := h.isLt; have hw := w.isLt
  funext a
  match a with
  | ⟨0, _⟩ => exact Fin.ext (by
      show (((b.val * 32 + m.val) * 518 + h.val) * 518 + w.val) / 8586368 = b.val; omega)
  | ⟨1, _⟩ => exact Fin.ext (by
      show (((b.val * 32 + m.val) * 518 + h.val) * 518 + w.val) / 268324 % 32 = m.val; omega)
  | ⟨2, _⟩ => rfl
  | ⟨3, _⟩ => exact Fin.ext (by
      show (((b.val * 32 + m.val) * 518 + h.val) * 518 + w.val) / 518 % 518 = h.val; omega)
  | ⟨4, _⟩ => exact Fin.ext (by
      show (((b.val * 32 + m.val) * 518 + h.val) * 518 + w.val) % 518 = w.val; omega)

/-! The second argument passes through the same reshapes and slices. -/

theorem idx_slice_lo' (b : Fin 4) (n : Fin 31) (k : Fin 268324) :
    idx_main_v8 (ix3 b n k) = ix3 b n.castSucc k := by
  funext a
  match a with
  | ⟨0, _⟩ => rfl
  | ⟨1, _⟩ => rfl
  | ⟨2, _⟩ => rfl

theorem idx_slice_hi' (b : Fin 4) (n : Fin 31) (k : Fin 268324) :
    idx_main_v9 (ix3 b n k) = ix3 b n.succ k := by
  funext a
  match a with
  | ⟨0, _⟩ => rfl
  | ⟨1, _⟩ => exact Fin.ext (by show 1 + n.val = n.val + 1; omega)
  | ⟨2, _⟩ => rfl

theorem idx_unflatten' (b : Fin 4) (m : Fin 32) (h w : Fin 518) :
    idx_main_v3 (ix3 b m (pix h w)) = ix4 b m h w := by
  have hb := b.isLt; have hm := m.isLt; have hh := h.isLt; have hw := w.isLt
  funext a
  match a with
  | ⟨0, _⟩ => exact Fin.ext (by
      show ((b.val * 32 + m.val) * 268324 + (h.val * 518 + w.val)) / 8586368 = b.val; omega)
  | ⟨1, _⟩ => exact Fin.ext (by
      show ((b.val * 32 + m.val) * 268324 + (h.val * 518 + w.val)) / 268324 % 32 = m.val; omega)
  | ⟨2, _⟩ => exact Fin.ext (by
      show ((b.val * 32 + m.val) * 268324 + (h.val * 518 + w.val)) / 518 % 518 = h.val; omega)
  | ⟨3, _⟩ => exact Fin.ext (by
      show ((b.val * 32 + m.val) * 268324 + (h.val * 518 + w.val)) % 518 = w.val; omega)

theorem idx_channel' (b : Fin 4) (m : Fin 32) (h w : Fin 518) :
    idx_main_v1 (ix4 b m h w) = ix5 b m (0 : Fin 1) h w := by
  have hb := b.isLt; have hm := m.isLt; have hh := h.isLt; have hw := w.isLt
  funext a
  match a with
  | ⟨0, _⟩ => exact Fin.ext (by
      show (((b.val * 32 + m.val) * 518 + h.val) * 518 + w.val) / 8586368 = b.val; omega)
  | ⟨1, _⟩ => exact Fin.ext (by
      show (((b.val * 32 + m.val) * 518 + h.val) * 518 + w.val) / 268324 % 32 = m.val; omega)
  | ⟨2, _⟩ => rfl
  | ⟨3, _⟩ => exact Fin.ext (by
      show (((b.val * 32 + m.val) * 518 + h.val) * 518 + w.val) / 518 % 518 = h.val; omega)
  | ⟨4, _⟩ => exact Fin.ext (by
      show (((b.val * 32 + m.val) * 518 + h.val) * 518 + w.val) % 518 = w.val; omega)

/-! Composed: where the two slices of each argument read in the input. -/

/-- First argument, earlier frame of the pair. -/
theorem idx_P_lo (b : Fin 4) (n : Fin 31) (h w : Fin 518) :
    idx_main_v0 (idx_main_v2 (idx_main_v4 (ix3 b n (pix h w)))) = ix5 b n.castSucc (0 : Fin 1) h w := by
  rw [idx_slice_lo, idx_unflatten, idx_channel]

/-- First argument, later frame of the pair. -/
theorem idx_P_hi (b : Fin 4) (n : Fin 31) (h w : Fin 518) :
    idx_main_v0 (idx_main_v2 (idx_main_v5 (ix3 b n (pix h w)))) = ix5 b n.succ (0 : Fin 1) h w := by
  rw [idx_slice_hi, idx_unflatten, idx_channel]

/-- Second argument, earlier frame of the pair. -/
theorem idx_Y_lo (b : Fin 4) (n : Fin 31) (h w : Fin 518) :
    idx_main_v1 (idx_main_v3 (idx_main_v8 (ix3 b n (pix h w)))) = ix5 b n.castSucc (0 : Fin 1) h w := by
  rw [idx_slice_lo', idx_unflatten', idx_channel']

/-- Second argument, later frame of the pair. -/
theorem idx_Y_hi (b : Fin 4) (n : Fin 31) (h w : Fin 518) :
    idx_main_v1 (idx_main_v3 (idx_main_v9 (ix3 b n (pix h w)))) = ix5 b n.succ (0 : Fin 1) h w := by
  rw [idx_slice_hi', idx_unflatten', idx_channel']

end Cert.ReferenceIdeal.RefIndex

end
-- ==== Proof.RefReduce.lean ====
/-
  The reference's inner reduction, read at a batch. The reference sums the batch × frame-pair × pixel array over
  its last two axes, leaving one value per batch: the initial value `0` plus the sum of every element whose
  first coordinate is that batch. Re-indexed by the frame pair and by the pixel's row and column (a flat pixel
  position is `h · 518 + w` for exactly one row `h` and column `w`), that is the triple sum over pairs, rows and
  columns. Sums of extended reals may be re-indexed and re-ordered freely: addition there is commutative and
  associative.
-/
import proofs.«159468_j38036230373449_1_alg».proof.Proof.Gen.ReferenceIdeal.Read
import proofs.«159468_j38036230373449_1_alg».proof.Proof.Consts
import proofs.«159468_j38036230373449_1_alg».proof.Proof.RefIndex
import Idealize.ShloMosaic.PureOps.Reduce
import Mathlib.Algebra.BigOperators.Group.Finset.Basic

noncomputable section

namespace Cert.ReferenceIdeal.RefReduce

open Cert.ReferenceIdeal Cert.ReferenceIdeal.Gen Cert.ReferenceIdeal.Read Cert.ReferenceIdeal.RefIndex
open Idealize.ShloMosaic Idealize.ShloMosaic.ValueIdx
open scoped BigOperators

/-- Dropping the pair and pixel axes of an index leaves batch `b` exactly when its first coordinate is `b`. -/
theorem drop_eq_iff (i : S4x31x268324.Idx) (b : Fin 4) :
    reducesTo_S4x31x268324_S4_d1_2.drop i = ix1 b ↔ i 0 = b := by
  have h0 : ((reducesTo_S4x31x268324_S4_d1_2.drop i) 0 : Nat) = i 0 :=
    Shape.ReducesTo.drop_apply_val_of_eq reducesTo_S4x31x268324_S4_d1_2 i 0 0
  constructor
  · intro h
    rw [h] at h0
    exact Fin.ext h0.symm
  · intro h
    funext d
    match d with
    | ⟨0, _⟩ => exact Fin.ext (h0.trans (congrArg Fin.val h))

/-- An index whose first coordinate is `b` is `(b, its pair, its pixel)`. -/
theorem eq_ix3_of_batch (i : S4x31x268324.Idx) (b : Fin 4) (h : i 0 = b) :
    ix3 b (i 1 : Fin 31) (i 2 : Fin 268324) = i := by
  funext d
  match d with
  | ⟨0, _⟩ => exact h.symm
  | ⟨1, _⟩ => rfl
  | ⟨2, _⟩ => rfl

/-- The sum over the pairs and flat pixel positions is the sum over pairs, rows and columns. -/
theorem sum_pair_pix (g : Fin 31 → Fin 268324 → EReal) :
    ∑ p : Fin 31 × Fin 268324, g p.1 p.2 = ∑ n : Fin 31, ∑ h : Fin 518, ∑ w : Fin 518, g n (pix h w) := by
  rw [Fintype.sum_prod_type]
  refine Finset.sum_congr rfl fun n _ => ?_
  rw [← Equiv.sum_comp pixEquiv (fun k => g n k), Fintype.sum_prod_type]
  rfl

/-- The reduction over the pair and pixel axes at batch `b`: the initial value plus the sum over pairs, rows and columns. -/
theorem hostReduceAdd_batch (y : S4x31x268324.Idx → EReal) (init : EReal) (b : Fin 4) :
    Ideal.hostReduceAdd reducesTo_S4x31x268324_S4_d1_2 y init (ix1 b)
      = init + ∑ n : Fin 31, ∑ h : Fin 518, ∑ w : Fin 518, y (ix3 b n (pix h w)) := by
  unfold Ideal.hostReduceAdd
  refine congrArg (fun z => init + z) ?_
  rw [← sum_pair_pix (fun n k => y (ix3 b n k))]
  refine Finset.sum_nbij' (fun i => ((i 1 : Fin 31), (i 2 : Fin 268324))) (fun p => ix3 b p.1 p.2) ?_ ?_ ?_ ?_ ?_
  · intro i _; exact Finset.mem_univ _
  · intro p _
    rw [Finset.mem_filter]
    exact ⟨Finset.mem_univ _, (drop_eq_iff _ b).mpr rfl⟩
  · intro i hi
    rw [Finset.mem_filter] at hi
    exact eq_ix3_of_batch i b ((drop_eq_iff i b).mp hi.2)
  · intro p _; rfl
  · intro i hi
    rw [Finset.mem_filter] at hi
    exact congrArg y (eq_ix3_of_batch i b ((drop_eq_iff i b).mp hi.2)).symm

/-- The reference's per-batch sum at batch `b`: zero plus the sum over pairs, rows and columns of the
    elementwise stage before it. -/
theorem val_main_v14_apply (x0 x1 : (⟨S4x32x1x518x518, .f32⟩ : BufTy).Contents (Elt Ideal)) (b : Fin 4) :
    val_main_v14 (F := Ideal) x0 x1 (ix1 b)
      = 0 + ∑ n : Fin 31, ∑ h : Fin 518, ∑ w : Fin 518, val_main_v13 (F := Ideal) x0 x1 (ix3 b n (pix h w)) := by
  unfold val_main_v14
  generalize val_main_v13 (F := Ideal) x0 x1 = y
  simp only [Host.reduceAdd, Ideal.hostReduceAdd_def]
  refine (hostReduceAdd_batch y _ b).trans ?_
  rw [val_main_cst_apply, Ideal.ofBits_def, Cert.Consts.ofBits_zero]

end Cert.ReferenceIdeal.RefReduce

end
-- ==== Proof.RefValue.lean ====
/-
  The reference program's value. Stage by stage: every element of the batch × frame-pair × pixel array is the
  specification's term `| |P[b,n] − P[b,n+1]| − |Y[b,n] − Y[b,n+1]| |` at its pixel (the absolute value of an
  extended real is `max x (−x)`, the subtraction the extended reals' own); each batch's sum of them is divided by
  `31`; the four quotients are summed and divided by `4`. Division by a nonzero real is the product with its
  reciprocal, and the mean of the four means over `31` is the grand total over `124`: the specification's loss.
-/
import proofs.«159468_j38036230373449_1_alg».proof.Proof.Gen.ReferenceIdeal.Read
import proofs.«159468_j38036230373449_1_alg».proof.Proof.Spec
import proofs.«159468_j38036230373449_1_alg».proof.Proof.Consts
import proofs.«159468_j38036230373449_1_alg».proof.Proof.RefLaw
import proofs.«159468_j38036230373449_1_alg».proof.Proof.RefIndex
import proofs.«159468_j38036230373449_1_alg».proof.Proof.RefReduce
import Idealize.ShloMosaic.Lib.ValueIdxRank1

noncomputable section

namespace Cert.ReferenceIdeal.RefValue

open Cert.ReferenceIdeal Cert.ReferenceIdeal.Gen Cert.ReferenceIdeal.Read Cert.ReferenceIdeal.RefIndex
open Idealize.ShloMosaic Idealize.ShloMosaic.ValueIdx
open scoped BigOperators

/-- The elementwise stage at batch `b`, pair `n`, pixel `(h, w)` is the specification's term there. -/
theorem val_main_v13_term (x0 x1 : (⟨S4x32x1x518x518, .f32⟩ : BufTy).Contents (Elt Ideal))
    (b : Fin 4) (n : Fin 31) (h w : Fin 518) :
    val_main_v13 (F := Ideal) x0 x1 (ix3 b n (pix h w)) = Cert.Spec.term x0 x1 b n h w := by
  rw [val_main_v13_apply, val_main_v12_apply, val_main_v7_apply, val_main_v11_apply, val_main_v6_apply,
    val_main_v10_apply, val_main_v4_apply, val_main_v5_apply, val_main_v8_apply, val_main_v9_apply,
    val_main_v2_apply, val_main_v2_apply, val_main_v3_apply, val_main_v3_apply,
    val_main_v0_apply, val_main_v0_apply, val_main_v1_apply, val_main_v1_apply,
    idx_P_lo, idx_P_hi, idx_Y_lo, idx_Y_hi]
  rfl

/-- A sum over the batch axis's indices is the sum over the batches. -/
theorem sum_batch (f : S4.Idx → EReal) : ∑ j : S4.Idx, f j = ∑ b : Fin 4, f (ix1 b) :=
  (Equiv.sum_comp (idxEquiv1 (n := 4)).symm f).symm

/-- Each batch's quotient: its sum over the frame pairs' tiles, from zero, times `1/31`. -/
theorem val_main_v16_batch (x0 x1 : (⟨S4x32x1x518x518, .f32⟩ : BufTy).Contents (Elt Ideal)) (b : Fin 4) :
    val_main_v16 (F := Ideal) x0 x1 (ix1 b)
      = (0 + ∑ n : Fin 31, Cert.Spec.tile x0 x1 b n) * ((1 / 31 : ℝ) : EReal) := by
  rw [val_main_v16_apply, val_main_v15_apply, val_main_cst_0_apply, RefReduce.val_main_v14_apply]
  simp only [val_main_v13_term]
  rw [Ideal.hostDivf_def, Ideal.ofBits_def, Cert.Consts.ofBits_31, Ideal.div_coe (by norm_num)]
  rfl

/-- The reference computes the specification's loss. -/
theorem ref_eq_loss (x0 x1 : (⟨S4x32x1x518x518, .f32⟩ : BufTy).Contents (Elt Ideal)) :
    val_main_v18 (F := Ideal) x0 x1 = fun _ => Cert.Spec.loss x0 x1 := by
  funext i
  rw [val_main_v18_apply, val_main_v17_apply, val_main_cst_2_apply, val_main_cst_1_apply, sum_batch]
  simp only [val_main_v16_batch, Ideal.ofBits_def]
  rw [Ideal.hostDivf_def, Cert.Consts.ofBits_zero, Cert.Consts.ofBits_4, Ideal.div_coe (by norm_num),
    Cert.RefLaw.mean_of_means (fun b => ∑ n : Fin 31, Cert.Spec.tile x0 x1 b n)]
  rfl

end Cert.ReferenceIdeal.RefValue

end
-- ==== Proof.lean ====
/-
  The certificate of the frame-difference loss kernel against its reference.

  Both programs take two arrays `P, Y` of 4 batches × 32 frames × 1 channel × 518 × 518 pixels and return one number:
  the sum over the batches `b`, the 31 pairs of consecutive frames `(n, n + 1)` and the pixels `(h, w)` of
  `| |P[b,n,h,w] − P[b,n+1,h,w]| − |Y[b,n,h,w] − Y[b,n+1,h,w]| |`, divided by `4 · 31 = 124` (`Cert.Spec.loss`).

  The kernel walks a 4 × 31 grid; at point `(b, n)` it is handed frames `n` and `n + 1` of batch `b` of each array
  (two windows on each array), sums the pixel terms of that pair and adds the sum into one cell that it reset at the
  first point; after the region the host divides the cell by 124. So the cell ends at the grand total, summed point
  by point. The reference takes the sum per batch, divides each by 31, adds the four quotients and divides by 4. On
  the extended reals the two agree: sums may be regrouped freely, and a nonnegative real factor distributes over any
  sum, so `(Σ_b S_b / 31) / 4 = (Σ_b S_b) / 124` whatever the `S_b` are — no finiteness of the inputs is used.

  The frames of the two kernel programs (one text read at two float instances) come from one launch theorem over the
  body's obligation at every grid point; the reference's frame is its run with the result dropped; the idealization
  rewrote nothing, so there is nothing to preserve.
-/
import proofs.«159468_j38036230373449_1_alg».proof.Defs
import proofs.«159468_j38036230373449_1_alg».proof.Proof.Gen.Kernel
import proofs.«159468_j38036230373449_1_alg».proof.Proof.Gen.KernelIdeal
import proofs.«159468_j38036230373449_1_alg».proof.Proof.Gen.ReferenceIdeal
import proofs.«159468_j38036230373449_1_alg».proof.Proof.Gen.Pre_finite_inputs
import proofs.«159468_j38036230373449_1_alg».proof.Proof.Gen.ReferenceIdeal.Run
import proofs.«159468_j38036230373449_1_alg».proof.Proof.K.Body
import proofs.«159468_j38036230373449_1_alg».proof.Proof.K.Launch
import proofs.«159468_j38036230373449_1_alg».proof.Proof.KI.Body
import proofs.«159468_j38036230373449_1_alg».proof.Proof.KI.Launch
import proofs.«159468_j38036230373449_1_alg».proof.Proof.KI.KernelValue
import proofs.«159468_j38036230373449_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its two arguments as they were. -/
theorem frame_kernel : Cert.frame_Kernel := fun m ρ _ =>
  (θ_run (Cert.Kernel.defs (F := Bits)) _ _).mono (fun _ h c => (h c).2)
    (Cert.Kernel.Hand.run_main (F := Bits) m ρ (Cert.Kernel.Hand.body_obligation m))

/-- So does the idealized kernel. -/
theorem frame_kernelIdeal : Cert.frame_KernelIdeal := fun m ρ _ =>
  (θ_run (Cert.KernelIdeal.defs (F := Ideal)) _ _).mono (fun _ h c => (h c).2)
    (Cert.KernelIdeal.Hand.run_main (F := Ideal) m ρ (Cert.KernelIdeal.Hand.body_obligation m))

/-- The reference is a straight line of host operations: its run, with the result dropped. -/
theorem frame_referenceIdeal : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of the arguments as their
    result: the kernel's accumulated cell over 124, the reference's mean of per-batch means. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Hand.kernel_value m c), (h c).2⟩)
      (Cert.KernelIdeal.Hand.run_main (F := Ideal) m ρ (Cert.KernelIdeal.Hand.body_obligation m))
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_eq_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
